-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S256x16 : Shape := ⟨2, ![256, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S256x16 .f32) (main_arg5 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x16 .f32 := Host.absf main_arg4
  let main_cst_6 : FVec F S_ .f32 := constant S_ .f32 0x7F800000#32
  let main_v20 : FVec F S256x16 .f32 := broadcastInDim S256x16 ![] bcast_S_S256x16 main_cst_6
  let main_v21 : IVec S256x16 1 := cmpf .olt main_v19 main_v20
  let main_c_7 : IVec S_ 1 := constantI S_ 1 1#1
  let main_v22 : IVec S_ 1 := (fun x v => Host.reduce IntOp.andi x v reducesTo_S256x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S256x128 .f32) (main_arg3 : FVec F S128 .f32) (main_arg4 : FVec F S256x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S256x16 : Shape := ⟨2, ![256, 16]⟩
abbrev S16 : Shape := ⟨1, ![16]⟩
abbrev S1x128 : Shape := ⟨2, ![1, 128]⟩
abbrev S1x16 : Shape := ⟨2, ![1, 16]⟩
abbrev S10000x16 : Shape := ⟨2, ![10000, 16]⟩
abbrev S200x10000 : Shape := ⟨2, ![200, 10000]⟩
abbrev S200x128 : Shape := ⟨2, ![200, 128]⟩
abbrev S200x16 : Shape := ⟨2, ![200, 16]⟩
abbrev S200 : Shape := ⟨1, ![200]⟩
abbrev S200x1 : Shape := ⟨2, ![200, 1]⟩
abbrev S128x128 : Shape := ⟨2, ![128, 128]⟩
abbrev S128x16 : Shape := ⟨2, ![128, 16]⟩

abbrev nBuf : Space → Nat
  | .hbm => 11
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S256x16, .f32⟩
  | .hbm, ⟨5, _⟩ => ⟨S16, .f32⟩
  | .hbm, ⟨6, _⟩ => ⟨S1x128, .f32⟩
  | .hbm, ⟨7, _⟩ => ⟨S1x16, .f32⟩
  | .hbm, ⟨8, _⟩ => ⟨S10000x16, .f32⟩
  | .hbm, ⟨9, _⟩ => ⟨S10000x16, .f32⟩
  | .hbm, ⟨10, _⟩ => ⟨S10000x16, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S200x128, .f32⟩
  | .local _ .vmem, ⟨4, _⟩ => ⟨S200x128, .f32⟩
  | .local _ .vmem, ⟨5, _⟩ => ⟨S256x128, .f32⟩
  | .local _ .vmem, ⟨6, _⟩ => ⟨S1x128, .f32⟩
  | .local _ .vmem, ⟨7, _⟩ => ⟨S256x16, .f32⟩
  | .local _ .vmem, ⟨8, _⟩ => ⟨S1x16, .f32⟩
  | .local _ .vmem, ⟨9, _⟩ => ⟨S200x16, .f32⟩
  | .local _ .vmem, ⟨10, _⟩ => ⟨S200x16, .f32⟩
  | .local _ .vmem, ⟨11, _⟩ => ⟨S200x16, .f32⟩
  | .local _ .vmem, ⟨12, _⟩ => ⟨S200x16, .f32⟩
  | .local _ .vmem, ⟨13, _⟩ => ⟨S200x10000, .f32⟩
  | .local _ .vmem, ⟨14, _⟩ => ⟨S200x10000, .f32⟩
  | .local _ .vmem, ⟨15, _⟩ => ⟨S10000x16, .f32⟩
  | .local _ .vmem, ⟨16, _⟩ => ⟨S200x16, .f32⟩
  | .local _ .vmem, ⟨17, _⟩ => ⟨S200x16, .f32⟩
  | .local _ .vmem, ⟨18, _⟩ => ⟨S200x16, .f32⟩
  | .local _ .vmem, ⟨19, _⟩ => ⟨S200x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2_0 : Ref sig .tc := ⟨.hbm, 8, rfl⟩
abbrev main_call0_v2_1 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S200x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S200x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S200x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  shapeCasts_S16_S1x16 : S16.ShapeCasts S1x16
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  reduces_S200x10000_S200 : S200x10000.Reduces [1] S200
  shapeCasts_S200_S200x1 : S200.ShapeCasts S200x1
  bitsLt_bf16_f32 : FTy.bits .bf16 < FTy.bits .f32
  broadcasts_S200x1_S200x128 : S200x1.Broadcasts S200x128
  inb_S200x128_S200x128_0_0 : ∀ a, (![0, 0] : Fin 2 → Nat) a + S200x128.size a ≤ S200x128.size a
  h_S200x128 : 0 < S200x128.numel
  inb_S256x128_S256x128_0_0 : ∀ a, (![0, 0] : Fin 2 → Nat) a + S256x128.size a ≤ S256x128.size a
  h_S256x128 : 0 < S256x128.numel
  slices_S256x128_o0_0_S128x128 : S256x128.Slices ![0, 0] S128x128
  slices_S256x128_o128_0_S128x128 : S256x128.Slices ![128, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S256x16_S256x16_0_0 : ∀ a, (![0, 0] : Fin 2 → Nat) a + S256x16.size a ≤ S256x16.size a
  h_S256x16 : 0 < S256x16.numel
  slices_S256x16_o0_0_S128x16 : S256x16.Slices ![0, 0] S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  inb_S200x16_S200x16_0_0 : ∀ a, (![0, 0] : Fin 2 → Nat) a + S200x16.size a ≤ S200x16.size a
  h_S200x16 : 0 < S200x16.numel
  slices_S256x16_o128_0_S128x16 : S256x16.Slices ![128, 0] S128x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  shapeCasts_S200x16_S200x16 : S200x16.ShapeCasts S200x16
  broadcasts_S200x1_S200x16 : S200x1.Broadcasts S200x16
  reduces_S200x16_S200 : S200x16.Reduces [1] S200
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  dot_S200x128_S128x16_S200x16_1_0_0_1_n_n_wf : DotDims.WF S200x128 S128x16 S200x16 [1] [0] [0] [1] [] []
  dot_S200x10000_S10000x16_S200x16_1_0_0_1_n_n_wf : DotDims.WF S200x10000 S10000x16 S200x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x128.size a ≤ S10000x128.size a
  hwx0_2 : ∀ i : grid0.Coords, EltTy.bits .f32 = 32 ∨ (Rect.block (s := S10000x128) S200x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x16.size a ≤ S256x16.size a
  hwx0_5 : ∀ i : grid0.Coords, EltTy.bits .f32 = 32 ∨ (Rect.block (s := S256x16) S256x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x16.size a ≤ S10000x16.size a
  hwx0_7 : ∀ i : grid0.Coords, EltTy.bits .f32 = 32 ∨ (Rect.block (s := S10000x16) S200x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x16.size a ≤ S10000x16.size a
  hwx0_8 : ∀ i : grid0.Coords, EltTy.bits .f32 = 32 ∨ (Rect.block (s := S10000x16) S200x16.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x16.size a ≤ S10000x16.size a
  hwx1_2 : ∀ i : grid1.Coords, EltTy.bits .f32 = 32 ∨ (Rect.block (s := S10000x16) S200x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x16.size a ≤ S10000x16.size a
  hwx1_3 : ∀ i : grid1.Coords, EltTy.bits .f32 = 32 ∨ (Rect.block (s := S10000x16) S200x16.size (cc1_transform_3 i) (hinb1_3 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S200x128_S128x16_S200x16_1_0_0_1_n_n : DotDims S200x128 S128x16 S200x16 where
  lhsContracting := [1]
  rhsContracting := [0]
  lhsNonContracting := [0]
  rhsNonContracting := [1]
  lhsBatch := []
  rhsBatch := []
  wf := dot_S200x128_S128x16_S200x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v2_0) S200x16.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v2_1) S200x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2_1) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2_0) S200x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S200x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S256x16 : Shape := ⟨2, ![256, 16]⟩
abbrev S16 : Shape := ⟨1, ![16]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S1x128 : Shape := ⟨2, ![1, 128]⟩
abbrev S10000x16 : Shape := ⟨2, ![10000, 16]⟩
abbrev S1x16 : Shape := ⟨2, ![1, 16]⟩

abbrev nBuf : Space → Nat
  | .hbm => 54
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S256x16, .f32⟩
  | .hbm, ⟨5, _⟩ => ⟨S16, .f32⟩
  | .hbm, ⟨6, _⟩ => ⟨S_, .f32⟩
  | .hbm, ⟨7, _⟩ => ⟨S10000, .f32⟩
  | .hbm, ⟨8, _⟩ => ⟨S10000x1, .f32⟩
  | .hbm, ⟨9, _⟩ => ⟨S_, .f32⟩
  | .hbm, ⟨10, _⟩ => ⟨S_, .f32⟩
  | .hbm, ⟨11, _⟩ => ⟨S10000x1, .f32⟩
  | .hbm, ⟨12, _⟩ => ⟨S10000x1, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x256, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S10000, .f32⟩
  | .hbm, ⟨26, _⟩ => ⟨S10000x1, .f32⟩
  | .hbm, ⟨27, _⟩ => ⟨S_, .f32⟩
  | .hbm, ⟨28, _⟩ => ⟨S_, .f32⟩
  | .hbm, ⟨29, _⟩ => ⟨S10000x1, .f32⟩
  | .hbm, ⟨30, _⟩ => ⟨S10000x1, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S10000x256, .f32⟩
  | .hbm, ⟨35, _⟩ => ⟨S10000x16, .f32⟩
  | .hbm, ⟨36, _⟩ => ⟨S1x16, .f32⟩
  | .hbm, ⟨37, _⟩ => ⟨S10000x16, .f32⟩
  | .hbm, ⟨38, _⟩ => ⟨S10000x16, .f32⟩
  | .hbm, ⟨39, _⟩ => ⟨S_, .f32⟩
  | .hbm, ⟨40, _⟩ => ⟨S10000, .f32⟩
  | .hbm, ⟨41, _⟩ => ⟨S_, .f32⟩
  | .hbm, ⟨42, _⟩ => ⟨S10000, .f32⟩
  | .hbm, ⟨43, _⟩ => ⟨S10000, .f32⟩
  | .hbm, ⟨44, _⟩ => ⟨S10000x1, .f32⟩
  | .hbm, ⟨45, _⟩ => ⟨S10000x16, .f32⟩
  | .hbm, ⟨46, _⟩ => ⟨S10000x16, .f32⟩
  | .hbm, ⟨47, _⟩ => ⟨S10000x16, .f32⟩
  | .hbm, ⟨48, _⟩ => ⟨S_, .f32⟩
  | .hbm, ⟨49, _⟩ => ⟨S10000, .f32⟩
  | .hbm, ⟨50, _⟩ => ⟨S10000x1, .f32⟩
  | .hbm, ⟨51, _⟩ => ⟨S10000x1, .f32⟩
  | .hbm, ⟨52, _⟩ => ⟨S10000x16, .f32⟩
  | .hbm, ⟨53, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call2_v0 : Ref sig .tc := ⟨.hbm, 28, rfl⟩
abbrev main_call2_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call3_cst : Ref sig .tc := ⟨.hbm, 39, rfl⟩
abbrev main_call3_v0 : Ref sig .tc := ⟨.hbm, 40, rfl⟩
abbrev main_call3_cst_0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_call3_v6 : Ref sig .tc := ⟨.hbm, 47, rfl⟩
abbrev main_call3_cst_1 : Ref sig .tc := ⟨.hbm, 48, rfl⟩
abbrev main_call3_v7 : Ref sig .tc := ⟨.hbm, 49, rfl⟩
abbrev main_call3_v8 : Ref sig .tc := ⟨.hbm, 50, rfl⟩
abbrev main_call3_v9 : Ref sig .tc := ⟨.hbm, 51, rfl⟩
abbrev main_call3_v10 : Ref sig .tc := ⟨.hbm, 52, rfl⟩
abbrev main_v23 : Ref sig .tc := ⟨.hbm, 53, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  bcast_S_S10000 : S_.BroadcastsInDim S10000 (![] : Fin 0 → Fin S10000.rank)
  bcast_S10000x1_S10000x16_0_1 : S10000x1.BroadcastsInDim S10000x16 (![0, 1] : Fin 2 → Fin S10000x16.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []
  dot_S10000x256_S256x16_S10000x16_1_0_0_1_n_n_wf : DotDims.WF S10000x256 S256x16 S10000x16 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x256_S256x16_S10000x16_1_0_0_1_n_n : DotDims S10000x256 S256x16 S10000x16 where
  lhsContracting := [1]
  rhsContracting := [0]
  lhsNonContracting := [0]
  rhsNonContracting := [1]
  lhsBatch := []
  rhsBatch := []
  wf := dot_S10000x256_S256x16_S10000x16_1_0_0_1_n_n_wf

class Facts : Prop extends Facts₀ where

variable [Facts]
-- ==== Proof.K.Body0.lean ====
/-
  The first pass (rows of the adjacency matrix in blocks of 200) as a pipeline body, at any float instance.

  At grid point `t` the body finds in its seven input buffers the blocks of the adjacency matrix, the feature table
  (whole, and its rows `200 t …`), the two weight matrices and the two bias rows, and leaves in its two output buffers
  the block's own half of the second layer (with the bias) and the block's hidden rows times the bottom half of the
  second weight matrix: the two stores' payloads, each written over the whole buffer. The inputs' buffers are left as
  found. Stated per core over the contents `V` the region is entered from.
-/
import proofs.«158636_g53910429499711_cont_9to1_m_389_3_alg».proof.Proof.Gen.Kernel.Launch
import proofs.«158636_g53910429499711_cont_9to1_m_389_3_alg».proof.Proof.Gen.Kernel.Skeleton
import proofs.«158636_g53910429499711_cont_9to1_m_389_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (unfetched, the block index has
    not moved), for any proof data whose array is `V`'s and whose body leaves the block in place. One lemma per input
    window: a window's block type is its own. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The one rectangle both stores write through: the whole [200,16] buffer. -/
abbrev rOut0 : Rect S200x16 := Rect.unit (s := S200x16) ![0, 0] S200x16.size inb_S200x16_S200x16_0_0

/-- The rectangles the loads read through: each input buffer whole. -/
abbrev rIn0_0 : Rect S200x10000 := Rect.unit (s := S200x10000) ![0, 0] S200x10000.size inb_S200x10000_S200x10000_0_0
abbrev rIn0_1 : Rect S10000x128 := Rect.unit (s := S10000x128) ![0, 0] S10000x128.size inb_S10000x128_S10000x128_0_0
abbrev rIn0_2 : Rect S200x128 := Rect.unit (s := S200x128) ![0, 0] S200x128.size inb_S200x128_S200x128_0_0
abbrev rIn0_3 : Rect S256x128 := Rect.unit (s := S256x128) ![0, 0] S256x128.size inb_S256x128_S256x128_0_0
abbrev rIn0_4 : Rect S1x128 := Rect.unit (s := S1x128) ![0, 0] S1x128.size inb_S1x128_S1x128_0_0
abbrev rIn0_5 : Rect S256x16 := Rect.unit (s := S256x16) ![0, 0] S256x16.size inb_S256x16_S256x16_0_0
abbrev rIn0_6 : Rect S1x16 := Rect.unit (s := S1x16) ![0, 0] S1x16.size inb_S1x16_S1x16_0_0

/-- The own-half buffer after the body: the first store's payload (of the loaded blocks) over the whole buffer. -/
def out0_7 (x0 : Vec F S200x10000 .f32) (x1 : Vec F S10000x128 .f32) (x2 : Vec F S200x128 .f32) (x3 : Vec F S256x128 .f32)
    (x4 : Vec F S1x128 .f32) (x5 : Vec F S256x16 .f32) (x6 : Vec F S1x16 .f32) : Vec F S200x16 .f32 :=
  View.canon [⟨rOut0, k0_pay2 (View.ld x0 rIn0_0) (View.ld x1 rIn0_1) (View.ld x2 rIn0_2) (View.ld x3 rIn0_3) (View.ld x4 rIn0_4) (View.ld x5 rIn0_5) (View.ld x6 rIn0_6)⟩]

/-- The neighbour-half buffer after the body: the second store's payload over the whole buffer. -/
def out0_8 (x0 : Vec F S200x10000 .f32) (x1 : Vec F S10000x128 .f32) (x2 : Vec F S200x128 .f32) (x3 : Vec F S256x128 .f32)
    (x4 : Vec F S1x128 .f32) (x5 : Vec F S256x16 .f32) : Vec F S200x16 .f32 :=
  View.canon [⟨rOut0, k0_pay3 (View.ld x0 rIn0_0) (View.ld x1 rIn0_1) (View.ld x2 rIn0_2) (View.ld x3 rIn0_3) (View.ld x4 rIn0_4) (View.ld x5 rIn0_5)⟩]

/-- A store through the whole-buffer rectangle covers the buffer. -/
theorem coverOut0 (p0 : Vec F S200x16 .f32) (y : S200x16.Idx) :
    ∃ pc ∈ ([⟨rOut0, p0⟩] : List (View.Piece (Elt F) S200x16 .f32)), y ∈ pc.1.set :=
  View.cover_of_tiled [⟨rOut0, p0⟩] S200x16.size (by rfl) y

/-! ## The body's triple -/

set_option maxHeartbeats 4000000 in
/-- The body on whole staging memrefs, the inputs' at read contents `x0 … x6` and the outputs' at anything, runs to
    the continuation holding the inputs' as they were and the two outputs' at `out0_7`, `out0_8` of the inputs'. -/
theorem sound_kernel0 (c : Dev nD) (E : Set ℕ) (i : grid0.Coords) (arg1 : Memref sig .tc .vmem S200x10000 .f32) (harg1 : arg1.IsWhole) (arg2 : Memref sig .tc .vmem S10000x128 .f32) (harg2 : arg2.IsWhole) (arg3 : Memref sig .tc .vmem S200x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S256x16 .f32) (harg6 : arg6.IsWhole) (arg7 : Memref sig .tc .vmem S1x16 .f32) (harg7 : arg7.IsWhole) (arg8 : Memref sig .tc .vmem S200x16 .f32) (harg8 : arg8.IsWhole) (arg9 : Memref sig .tc .vmem S200x16 .f32) (harg9 : arg9.IsWhole)
    (x0 : Vec F S200x10000 .f32) (x1 : Vec F S10000x128 .f32) (x2 : Vec F S200x128 .f32) (x3 : Vec F S256x128 .f32) (x4 : Vec F S1x128 .f32) (x5 : Vec F S256x16 .f32) (x6 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8 arg9 harg9) K := by
  simp only [cc0__pass1_kernel_eq_skeleton]; unfold cc0__pass1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (coverOut0 (F := F) _)
  iexists _; isplitr
  swap; · iexact H8
  ipureintro
  try dsimp only
  exact View.read_writes_eq_canon _ _ _ (coverOut0 (F := F) _)

/-! ## The pipeline's proof data -/

/-- The proof data of this pass on core `c`: the arrays as the region finds them; after the body at point `t` each
    input's buffer at its block and each output's at the stores' payloads of the input blocks; the invariant only the
    scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' buffers hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Share0.lean ====
/-
  The first pass reads the feature table through two windows (the whole table, and the block's rows): the table's
  buffer is dealt between them, half the share each, when the pass is entered, and the halves are joined when it ends.
  Every other array of the pass belongs to one window, at the full share.
-/
import proofs.«158636_g53910429499711_cont_9to1_m_389_3_alg».proof.Proof.K.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the first pass's nine windows. -/
theorem arrImage0 : Finset.univ.image (Pipeline.arrRef spec0) = ([main_arg1, main_arg0, main_arg2, main_call0_v0, main_arg4, main_call0_v1, main_call0_v2_0, main_call0_v2_1] : List (Ref sig .tc)).toFinset := by decide

/-- Those buffers, each whole at the full share, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0) ∗ (((c : Thread nD τ).loc main_arg2) ↦{fullShare} W main_arg2) ∗ (((c : Thread nD τ).loc main_call0_v0) ↦{fullShare} W main_call0_v0) ∗ (((c : Thread nD τ).loc main_arg4) ↦{fullShare} W main_arg4) ∗ (((c : Thread nD τ).loc main_call0_v1) ↦{fullShare} W main_call0_v1) ∗ (((c : Thread nD τ).loc main_call0_v2_0) ↦{fullShare} W main_call0_v2_0) ∗ (((c : Thread nD τ).loc main_call0_v2_1) ↦{fullShare} W main_call0_v2_1)) := by
  unfold Pipeline.arrBufs
  exact bigSep_eq_bigSepL_of_eq [main_arg1, main_arg0, main_arg2, main_call0_v0, main_arg4, main_call0_v1, main_call0_v2_0, main_call0_v2_1] arrImage0 (by decide) _

/-- The share each window holds its array at: the two windows on the feature table half each, the others the whole. -/
theorem share0_0 (c : Dev nD) : (dat0 V c).share 0 = fullShare := rfl
theorem share0_1 (c : Dev nD) : (dat0 V c).share 1 = fullShare.left := rfl
theorem share0_2 (c : Dev nD) : (dat0 V c).share 2 = fullShare.right := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl
theorem share0_7 (c : Dev nD) : (dat0 V c).share 7 = fullShare := rfl
theorem share0_8 (c : Dev nD) : (dat0 V c).share 8 = fullShare := rfl

/-- The pass's arrays at contents `G`, window by window. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg1) ↦{fullShare} G 0) ∗ (((c : Thread nD τ).loc main_arg0) ↦{fullShare.left} G 1) ∗ (((c : Thread nD τ).loc main_arg0) ↦{fullShare.right} G 2) ∗ (((c : Thread nD τ).loc main_arg2) ↦{fullShare} G 3) ∗ (((c : Thread nD τ).loc main_call0_v0) ↦{fullShare} G 4) ∗ (((c : Thread nD τ).loc main_arg4) ↦{fullShare} G 5) ∗ (((c : Thread nD τ).loc main_call0_v1) ↦{fullShare} G 6) ∗ (((c : Thread nD τ).loc main_call0_v2_0) ↦{fullShare} G 7) ∗ (((c : Thread nD τ).loc main_call0_v2_1) ↦{fullShare} G 8)) := by
  unfold Pipeline.Dat.arrays
  rw [bigSep_W0]
  rw [share0_0, share0_1, share0_2, share0_3, share0_4, share0_5, share0_6, share0_7, share0_8]
  rw [(arr_whole0 0).set_eq_univ, (arr_whole0 1).set_eq_univ, (arr_whole0 3).set_eq_univ, (arr_whole0 4).set_eq_univ, (arr_whole0 5).set_eq_univ, (arr_whole0 6).set_eq_univ, (arr_whole0 7).set_eq_univ, (arr_whole0 8).set_eq_univ]

/-- ENTRY: the buffers at contents `W` are the pass's arrays at the same contents, the feature table's share halved. -/
theorem arrays0_of_bufs (c : Dev nD) (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    (Pipeline.arrBufs (Ix := Unit) (Name := ℕ) (U := UR sig nD τ) (Lvl := ℕ) spec0 c W : sProp 𝕄) ⊢ (dat0 V c).arrays G := by
  rw [arrBufs0_eq, arrays0_eq, hG 0, hG 1, hG 2, hG 3, hG 4, hG 5, hG 6, hG 7, hG 8]
  iintro ⟨H1, H0, H2, H3, H4, H5, H6, H7⟩
  ihave H0' := (pointsTo_share (PosShare.mem_left_op_right fullShare)).1 $$ H0
  icases H0' with ⟨H0l, H0r⟩
  isplitl [H1]; · iexact H1
  isplitl [H0l]; · iexact H0l
  isplitl [H0r]; · iexact H0r
  isplitl [H2]; · iexact H2
  isplitl [H3]; · iexact H3
  isplitl [H4]; · iexact H4
  isplitl [H5]; · iexact H5
  isplitl [H6]; · iexact H6
  iexact H7

/-- EXIT: the pass's arrays at contents `G` that agree with `W'` are the buffers at `W'`, the two halves of the
    feature table (both windows read it: they hold the same contents) joined. -/
theorem bufs_of_arrays0 (c : Dev nD) (W' : (b : Ref sig .tc) → Buf (Elt F) ((c : Thread nD τ).loc b))
    (G : (w : Fin cfg0.W) → Buf (Elt F) ((cfg0.win w).arr.view.loc (c : Thread nD τ))) (hG : ∀ w, G w = W' (Pipeline.arrRef spec0 w)) :
    ((dat0 V c).arrays G : sProp 𝕄) ⊢ Pipeline.arrBufs (Ix := Unit) (Name := ℕ) (U := UR sig nD τ) (Lvl := ℕ) spec0 c W' := by
  rw [arrBufs0_eq, arrays0_eq, hG 0, hG 1, hG 2, hG 3, hG 4, hG 5, hG 6, hG 7, hG 8]
  iintro ⟨H1, H0l, H0r, H2, H3, H4, H5, H6, H7⟩
  isplitl [H1]; · iexact H1
  isplitl [H0l H0r]
  · iapply (pointsTo_share (PosShare.mem_left_op_right fullShare)).2
    isplitl [H0l]; · iexact H0l
    iexact H0r
  isplitl [H2]; · iexact H2
  isplitl [H3]; · iexact H3
  isplitl [H4]; · iexact H4
  isplitl [H5]; · iexact H5
  isplitl [H6]; · iexact H6
  iexact H7

end Cert.Kernel.Hand

end
-- ==== Proof.K.Body1.lean ====
/-
  The second pass (rows of the adjacency matrix in blocks of 200) as a pipeline body, at any float instance.

  At grid point `t` the body finds in its three input buffers the block of the adjacency matrix, the whole 16-wide
  neighbour-half table the first pass wrote and the block's rows of the own-half table, and leaves in its output buffer
  the block's log-softmax rows: one store's payload over the whole buffer. The inputs' buffers are left as found.
  Stated per core over the contents `V` the region is entered from.
-/
import proofs.«158636_g53910429499711_cont_9to1_m_389_3_alg».proof.Proof.Gen.Kernel.Launch
import proofs.«158636_g53910429499711_cont_9to1_m_389_3_alg».proof.Proof.Gen.Kernel.Skeleton
import proofs.«158636_g53910429499711_cont_9to1_m_389_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (unfetched, the block index has
    not moved), for any proof data whose array is `V`'s and whose body leaves the block in place. One lemma per input
    window: a window's block type is its own. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangle the store writes through: the whole [200,16] buffer. -/
abbrev rOut1 : Rect S200x16 := Rect.unit (s := S200x16) ![0, 0] S200x16.size inb_S200x16_S200x16_0_0

/-- The rectangles the loads read through: each input buffer whole. -/
abbrev rIn1_0 : Rect S200x10000 := Rect.unit (s := S200x10000) ![0, 0] S200x10000.size inb_S200x10000_S200x10000_0_0
abbrev rIn1_1 : Rect S10000x16 := Rect.unit (s := S10000x16) ![0, 0] S10000x16.size inb_S10000x16_S10000x16_0_0
abbrev rIn1_2 : Rect S200x16 := Rect.unit (s := S200x16) ![0, 0] S200x16.size inb_S200x16_S200x16_0_0

/-- The output buffer after the body: the store's payload (of the loaded blocks) over the whole buffer. -/
def out1_3 (x0 : Vec F S200x10000 .f32) (x1 : Vec F S10000x16 .f32) (x2 : Vec F S200x16 .f32) : Vec F S200x16 .f32 :=
  View.canon [⟨rOut1, k1_pay1 (View.ld x0 rIn1_0) (View.ld x1 rIn1_1) (View.ld x2 rIn1_2)⟩]

/-- A store through the whole-buffer rectangle covers the buffer. -/
theorem coverOut1 (p0 : Vec F S200x16 .f32) (y : S200x16.Idx) :
    ∃ pc ∈ ([⟨rOut1, p0⟩] : List (View.Piece (Elt F) S200x16 .f32)), y ∈ pc.1.set :=
  View.cover_of_tiled [⟨rOut1, p0⟩] S200x16.size (by rfl) y

/-! ## The body's triple -/

set_option maxHeartbeats 4000000 in
/-- The body on whole staging memrefs, the inputs' at read contents `x0 x1 x2` and the output's at anything, runs to
    the continuation holding the inputs' as they were and the output's at `out1_3` of the inputs'. -/
theorem sound_kernel1 (c : Dev nD) (E : Set ℕ) (i : grid1.Coords) (arg1 : Memref sig .tc .vmem S200x10000 .f32) (harg1 : arg1.IsWhole) (arg2 : Memref sig .tc .vmem S10000x16 .f32) (harg2 : arg2.IsWhole) (arg3 : Memref sig .tc .vmem S200x16 .f32) (harg3 : arg3.IsWhole) (arg4 : Memref sig .tc .vmem S200x16 .f32) (harg4 : arg4.IsWhole)
    (x0 : Vec F S200x10000 .f32) (x1 : Vec F S10000x16 .f32) (x2 : Vec F S200x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__pass2_kernel i arg1 harg1 arg2 harg2 arg3 harg3 arg4 harg4) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (coverOut1 (F := F) _)

/-! ## The pipeline's proof data -/

/-- The proof data of this pass on core `c`: the arrays as the region finds them; after the body at point `t` each
    input's buffer at its block and each output's at the stores' payloads of the input blocks; the invariant only the
    scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare
    | ⟨1, _⟩ => fullShare
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program at any float instance: the two reshapes of the bias vectors, the first pass, the second pass.

  The buffer contents between the items are a fold from the launch memory: after the reshapes (`W1`), after the first
  pass (`W2`: its two output tables at what its fifty write-backs leave, everything else as it was), after the second
  pass (`W3`: the result at what its write-backs leave). Each pass is entered from every unscoped buffer held at the
  contents before it and left with them held at the contents after it; beside the buffers ride the generator register
  and the core owing nothing. The run ends with every unscoped buffer at `W3`: the arguments as launched, the result
  at the second pass's final array.
-/
import proofs.«158636_g53910429499711_cont_9to1_m_389_3_alg».proof.Proof.K.Share0
import proofs.«158636_g53910429499711_cont_9to1_m_389_3_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between the items -/

/-- Core `c`'s buffers at launch. -/
abbrev W0 (c : Dev nD) : Valuation τ sig (Elt F) := fun b => m (c, b)
/-- After the two reshapes. -/
abbrev W1 (c : Dev nD) : Valuation τ sig (Elt F) := StableHlo.after hostOps0 (W0 m c)
/-- The same read at the TensorCore's references: what the first pass is entered from. -/
abbrev V1 : (c : Dev nD) → (b : Ref sig .tc) → Buf (Elt F) ((c : Thread nD τ).loc b) := fun c b => W1 m c b
/-- After the first pass: its two output tables at what the write-backs leave. -/
def W2 (c : Dev nD) : Valuation τ sig (Elt F) :=
  Function.update (Function.update (W1 m c) main_call0_v2_0 ((dat0 (V1 m) c).arrAt 7 cfg0.N)) main_call0_v2_1 ((dat0 (V1 m) c).arrAt 8 cfg0.N)
abbrev V2 : (c : Dev nD) → (b : Ref sig .tc) → Buf (Elt F) ((c : Thread nD τ).loc b) := fun c b => W2 m c b
/-- After the second pass: the result at what the write-backs leave. -/
def W3 (c : Dev nD) : Valuation τ sig (Elt F) :=
  Function.update (W2 m c) main_v0 ((dat1 (V2 m) c).arrAt 3 cfg1.N)
abbrev V3 : (c : Dev nD) → (b : Ref sig .tc) → Buf (Elt F) ((c : Thread nD τ).loc b) := fun c b => W3 m c b

theorem W2_of (c : Dev nD) (r : Ref sig .tc) (h : r ∉ ([main_call0_v2_0, main_call0_v2_1] : List (Ref sig .tc))) : W2 m c r = W1 m c r := by
  simp only [W2, Function.update_of_ne (StableHlo.devRef_ne_of_ne (List.ne_of_not_mem_cons h) : (Proc.devRef .tc r : DevRef τ sig) ≠ Proc.devRef .tc main_call0_v2_0), Function.update_of_ne (StableHlo.devRef_ne_of_ne (List.ne_of_not_mem_cons (List.not_mem_of_not_mem_cons h)) : (Proc.devRef .tc r : DevRef τ sig) ≠ Proc.devRef .tc main_call0_v2_1)]
theorem W2_v2_0 (c : Dev nD) : W2 m c main_call0_v2_0 = (dat0 (V1 m) c).arrAt 7 cfg0.N := by
  unfold W2
  rw [Function.update_of_ne (StableHlo.devRef_ne_of_ne (by decide) : (Proc.devRef .tc main_call0_v2_0 : DevRef τ sig) ≠ Proc.devRef .tc main_call0_v2_1), Function.update_self]
theorem W2_v2_1 (c : Dev nD) : W2 m c main_call0_v2_1 = (dat0 (V1 m) c).arrAt 8 cfg0.N := by
  unfold W2; rw [Function.update_self]
theorem W3_of (c : Dev nD) (r : Ref sig .tc) (h : r ∉ ([main_v0] : List (Ref sig .tc))) : W3 m c r = W2 m c r := by
  simp only [W3, Function.update_of_ne (StableHlo.devRef_ne_of_ne (List.ne_of_not_mem_cons h) : (Proc.devRef .tc r : DevRef τ sig) ≠ Proc.devRef .tc main_v0)]
theorem W3_v0 (c : Dev nD) : W3 m c main_v0 = (dat1 (V2 m) c).arrAt 3 cfg1.N := by
  unfold W3; rw [Function.update_self]

/-- The references the reshapes write. -/
theorem hostOps0_writes : (hostOps0 : List (HloOp τ sig (Elt F))).Forall fun op => op.writes ⊆ (([main_call0_v0, main_call0_v1] : List (Ref sig .tc)).map (Proc.devRef (τ := τ) .tc)).toFinset := by
  simp only [List.Forall]
  exact ⟨by simp only [StableHlo.reshape_writes, Finset.singleton_subset_iff, List.mem_toFinset]; exact List.mem_map_of_mem (by decide),
    by simp only [StableHlo.reshape_writes, Finset.singleton_subset_iff, List.mem_toFinset]; exact List.mem_map_of_mem (by decide)⟩
theorem W1_of (c : Dev nD) (r : Ref sig .tc) (h : r ∉ ([main_call0_v0, main_call0_v1] : List (Ref sig .tc))) : W1 m c r = W0 m c r :=
  StableHlo.after_of_writes_sub hostOps0 _ hostOps0_writes h
theorem hostOps0_fresh : (hostOps0 : List (HloOp τ sig (Elt F))).Forall fun op => op.fresh = ∅ := by
  simp only [List.Forall]; repeat' constructor

/-- No item writes an argument: each reaches the end as launched. -/
theorem W3_main_arg0 (c : Dev nD) : W3 m c main_arg0 = m ((c : Thread nD τ).loc main_arg0) :=
  (W3_of m c main_arg0 (by decide)).trans <| (W2_of m c main_arg0 (by decide)).trans <| (W1_of m c main_arg0 (by decide)).trans rfl
theorem W3_main_arg1 (c : Dev nD) : W3 m c main_arg1 = m ((c : Thread nD τ).loc main_arg1) :=
  (W3_of m c main_arg1 (by decide)).trans <| (W2_of m c main_arg1 (by decide)).trans <| (W1_of m c main_arg1 (by decide)).trans rfl
theorem W3_main_arg2 (c : Dev nD) : W3 m c main_arg2 = m ((c : Thread nD τ).loc main_arg2) :=
  (W3_of m c main_arg2 (by decide)).trans <| (W2_of m c main_arg2 (by decide)).trans <| (W1_of m c main_arg2 (by decide)).trans rfl
theorem W3_main_arg3 (c : Dev nD) : W3 m c main_arg3 = m ((c : Thread nD τ).loc main_arg3) :=
  (W3_of m c main_arg3 (by decide)).trans <| (W2_of m c main_arg3 (by decide)).trans <| (W1_of m c main_arg3 (by decide)).trans rfl
theorem W3_main_arg4 (c : Dev nD) : W3 m c main_arg4 = m ((c : Thread nD τ).loc main_arg4) :=
  (W3_of m c main_arg4 (by decide)).trans <| (W2_of m c main_arg4 (by decide)).trans <| (W1_of m c main_arg4 (by decide)).trans rfl
theorem W3_main_arg5 (c : Dev nD) : W3 m c main_arg5 = m ((c : Thread nD τ).loc main_arg5) :=
  (W3_of m c main_arg5 (by decide)).trans <| (W2_of m c main_arg5 (by decide)).trans <| (W1_of m c main_arg5 (by decide)).trans rfl

/-! ## The proof data family and what rides beside the buffers -/

/-- No pass has a prefetched table. -/
abbrev adm : (p : Fin 2) → (pcfgs (F := F) p).Adm := fun p => (cfgs p).toPCfg_adm
/-- Each pass's proof data at the contents it is entered from. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state and the core owing nothing. -/
abbrev R (c : Dev nD) : sProp 𝕄 := iprop((∃ r, prngReg c r) ∗ ∃ W, owes (c : Thread nD τ) (0 : CellTallies nD τ sig Unit) W)
/-- The reshapes as a segment, from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W3`, the generator register at some state. -/
abbrev Tₙ (c : Dev nD) : sProp 𝕄 := iprop(StableHlo.held (c : Thread nD τ) (Pipeline.ucRefs τ sig) (W3 m c) ∗ ∃ r, prngReg c r)

/-! ## The first pass's exit contents agree with its arrays -/

theorem hF0 (c : Dev nD) : ∀ w : Fin cfg0.W, (dat0 (V1 m) c).arrAt w cfg0.N = V2 m c (Pipeline.arrRef spec0 w) := by
  intro w; match w with
  | ⟨0, _⟩ => exact ((dat0 (V1 m) c).arrAt_in 0 rfl _).trans ((A_eq0 (V1 m) c 0).trans (W2_of m c _ (by decide)).symm)
  | ⟨1, _⟩ => exact ((dat0 (V1 m) c).arrAt_in 1 rfl _).trans ((A_eq0 (V1 m) c 1).trans (W2_of m c _ (by decide)).symm)
  | ⟨2, _⟩ => exact ((dat0 (V1 m) c).arrAt_in 2 rfl _).trans ((A_eq0 (V1 m) c 2).trans (W2_of m c _ (by decide)).symm)
  | ⟨3, _⟩ => exact ((dat0 (V1 m) c).arrAt_in 3 rfl _).trans ((A_eq0 (V1 m) c 3).trans (W2_of m c _ (by decide)).symm)
  | ⟨4, _⟩ => exact ((dat0 (V1 m) c).arrAt_in 4 rfl _).trans ((A_eq0 (V1 m) c 4).trans (W2_of m c _ (by decide)).symm)
  | ⟨5, _⟩ => exact ((dat0 (V1 m) c).arrAt_in 5 rfl _).trans ((A_eq0 (V1 m) c 5).trans (W2_of m c _ (by decide)).symm)
  | ⟨6, _⟩ => exact ((dat0 (V1 m) c).arrAt_in 6 rfl _).trans ((A_eq0 (V1 m) c 6).trans (W2_of m c _ (by decide)).symm)
  | ⟨7, _⟩ => exact (W2_v2_0 m c).symm
  | ⟨8, _⟩ => exact (W2_v2_1 m c).symm
theorem hrest0 (c : Dev nD) : ∀ b, b ∉ Finset.univ.image (Pipeline.arrRef spec0) → V2 m c b = V1 m c b := fun b hb =>
  W2_of m c b (by
    rw [arrImage0] at hb
    intro h
    rcases List.mem_cons.mp h with rfl | h
    · exact hb (by decide)
    · rcases List.mem_cons.mp h with rfl | h
      · exact hb (by decide)
      · exact absurd h (List.not_mem_nil))
theorem hF1 (c : Dev nD) : ∀ w : Fin cfg1.W, (dat1 (V2 m) c).arrAt w cfg1.N = V3 m c (Pipeline.arrRef spec1 w) := by
  intro w; match w with
  | ⟨0, _⟩ => exact ((dat1 (V2 m) c).arrAt_in 0 rfl _).trans ((A_eq1 (V2 m) c 0).trans (W3_of m c _ (by decide)).symm)
  | ⟨1, _⟩ => exact ((dat1 (V2 m) c).arrAt_in 1 rfl _).trans ((A_eq1 (V2 m) c 1).trans (W3_of m c _ (by decide)).symm)
  | ⟨2, _⟩ => exact ((dat1 (V2 m) c).arrAt_in 2 rfl _).trans ((A_eq1 (V2 m) c 2).trans (W3_of m c _ (by decide)).symm)
  | ⟨3, _⟩ => exact (W3_v0 m c).symm
theorem hrest1 (c : Dev nD) : ∀ b, b ∉ Finset.univ.image (Pipeline.arrRef spec1) → V3 m c b = V2 m c b := fun b hb =>
  W3_of m c b (by
    intro h
    rcases List.mem_cons.mp h with rfl | h
    · exact hb (by decide)
    · exact absurd h (List.not_mem_nil))

/-! ## The passes as segments -/

set_option backward.isDefEq.respectTransparency.types false in
/-- The first pass: entered from every unscoped buffer at `W1`, left at `W2`. Its arrays are split out of the unscoped
    buffers (the feature table's share halved between its two windows) and put back at the exit contents; the generator
    register goes into the invariant and comes out; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs (Ix := Unit) (Name := ℕ) (U := UR sig nD τ) (Lvl := ℕ) c (V1 m c) : sProp 𝕄)
        ⊢ iprop((pdats m 0 c).arrays ((pdats m 0 c).arrAt · 0) ∗ Pipeline.unscopedRest spec0 c (V1 m c)) := by
      rw [Pipeline.unscopedBufs_split₀ cfgs 0 winFacts₀0.arr_unscoped c (V1 m c)]
      exact sep_mono (arrays0_of_bufs (V1 m) c (V1 m c) _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : (iprop((pdats m 0 c).arrays ((pdats m 0 c).arrAt · cfg0.N) ∗ Pipeline.unscopedRest spec0 c (V1 m c)) : sProp 𝕄)
        ⊢ unscopedBufs (Ix := Unit) (Name := ℕ) (U := UR sig nD τ) (Lvl := ℕ) c (V2 m c) := by
      rw [Pipeline.unscopedBufs_split₀ cfgs 0 winFacts₀0.arr_unscoped c (V2 m c)]
      refine sep_mono (bufs_of_arrays0 (V1 m) c (V2 m c) _ (hF0 m c)) (Entails.of_eq ?_)
      unfold Pipeline.unscopedRest
      exact bigSep_congr fun b hb => by rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass: entered from every unscoped buffer at `W2`, left at `W3` (what the launch reads at the end). Its
    arrays are distinct buffers, each held whole. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full (fun w => by match w with | ⟨0, _⟩ => rfl | ⟨1, _⟩ => rfl | ⟨2, _⟩ => rfl | ⟨3, _⟩ => rfl)) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full (fun w => by match w with | ⟨0, _⟩ => rfl | ⟨1, _⟩ => rfl | ⟨2, _⟩ => rfl | ⟨3, _⟩ => rfl))
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg0 m), .region (reg0 m), .region (reg1 m) ]
/-- The program is the run of the segments. -/
theorem main_run (c : Dev nD) : main (F := F) c = Pipeline.Seg.run (segs m) := (main_chain c).trans (by chain_rfl)

set_option backward.isDefEq.respectTransparency.types false in
/-- THE RUN, at any float instance: from any memory with zero counters every weakly fair execution of the program on
    the TensorCores terminates, nothing faulting, and every final memory holds every unscoped buffer at `W3`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c)⟩) (run_all m ρ)

/-- The run with the result named: the second pass's final array, the arguments as launched. -/
theorem run_value (ρ : Dev nD → PrngReg) : θ_run defs (onTc (τ := τ) (main (F := F))) ⟨m, fun _ => 0, ρ⟩ (fun r => ∀ c : Dev nD,
      r.2.mem ((c.tc : Thread nD τ).loc main_v0) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_v0 (by decide))).trans (W3_v0 m c),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c)⟩) (run_all m ρ)

end Cert.Kernel.Hand

end
-- ==== Proof.KI.Body0.lean ====
/-
  The first pass (rows of the adjacency matrix in blocks of 200) as a pipeline body, at any float instance.

  At grid point `t` the body finds in its seven input buffers the blocks of the adjacency matrix, the feature table
  (whole, and its rows `200 t …`), the two weight matrices and the two bias rows, and leaves in its two output buffers
  the block's own half of the second layer (with the bias) and the block's hidden rows times the bottom half of the
  second weight matrix: the two stores' payloads, each written over the whole buffer. The inputs' buffers are left as
  found. Stated per core over the contents `V` the region is entered from.
-/
import proofs.«158636_g53910429499711_cont_9to1_m_389_3_alg».proof.Proof.Gen.KernelIdeal.Launch
import proofs.«158636_g53910429499711_cont_9to1_m_389_3_alg».proof.Proof.Gen.KernelIdeal.Skeleton
import proofs.«158636_g53910429499711_cont_9to1_m_389_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (unfetched, the block index has
    not moved), for any proof data whose array is `V`'s and whose body leaves the block in place. One lemma per input
    window: a window's block type is its own. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The one rectangle both stores write through: the whole [200,16] buffer. -/
abbrev rOut0 : Rect S200x16 := Rect.unit (s := S200x16) ![0, 0] S200x16.size inb_S200x16_S200x16_0_0

/-- The rectangles the loads read through: each input buffer whole. -/
abbrev rIn0_0 : Rect S200x10000 := Rect.unit (s := S200x10000) ![0, 0] S200x10000.size inb_S200x10000_S200x10000_0_0
abbrev rIn0_1 : Rect S10000x128 := Rect.unit (s := S10000x128) ![0, 0] S10000x128.size inb_S10000x128_S10000x128_0_0
abbrev rIn0_2 : Rect S200x128 := Rect.unit (s := S200x128) ![0, 0] S200x128.size inb_S200x128_S200x128_0_0
abbrev rIn0_3 : Rect S256x128 := Rect.unit (s := S256x128) ![0, 0] S256x128.size inb_S256x128_S256x128_0_0
abbrev rIn0_4 : Rect S1x128 := Rect.unit (s := S1x128) ![0, 0] S1x128.size inb_S1x128_S1x128_0_0
abbrev rIn0_5 : Rect S256x16 := Rect.unit (s := S256x16) ![0, 0] S256x16.size inb_S256x16_S256x16_0_0
abbrev rIn0_6 : Rect S1x16 := Rect.unit (s := S1x16) ![0, 0] S1x16.size inb_S1x16_S1x16_0_0

/-- The own-half buffer after the body: the first store's payload (of the loaded blocks) over the whole buffer. -/
def out0_7 (x0 : Vec F S200x10000 .f32) (x1 : Vec F S10000x128 .f32) (x2 : Vec F S200x128 .f32) (x3 : Vec F S256x128 .f32)
    (x4 : Vec F S1x128 .f32) (x5 : Vec F S256x16 .f32) (x6 : Vec F S1x16 .f32) : Vec F S200x16 .f32 :=
  View.canon [⟨rOut0, k0_pay2 (View.ld x0 rIn0_0) (View.ld x1 rIn0_1) (View.ld x2 rIn0_2) (View.ld x3 rIn0_3) (View.ld x4 rIn0_4) (View.ld x5 rIn0_5) (View.ld x6 rIn0_6)⟩]

/-- The neighbour-half buffer after the body: the second store's payload over the whole buffer. -/
def out0_8 (x0 : Vec F S200x10000 .f32) (x1 : Vec F S10000x128 .f32) (x2 : Vec F S200x128 .f32) (x3 : Vec F S256x128 .f32)
    (x4 : Vec F S1x128 .f32) (x5 : Vec F S256x16 .f32) : Vec F S200x16 .f32 :=
  View.canon [⟨rOut0, k0_pay3 (View.ld x0 rIn0_0) (View.ld x1 rIn0_1) (View.ld x2 rIn0_2) (View.ld x3 rIn0_3) (View.ld x4 rIn0_4) (View.ld x5 rIn0_5)⟩]

/-- A store through the whole-buffer rectangle covers the buffer. -/
theorem coverOut0 (p0 : Vec F S200x16 .f32) (y : S200x16.Idx) :
    ∃ pc ∈ ([⟨rOut0, p0⟩] : List (View.Piece (Elt F) S200x16 .f32)), y ∈ pc.1.set :=
  View.cover_of_tiled [⟨rOut0, p0⟩] S200x16.size (by rfl) y

/-! ## The body's triple -/

set_option maxHeartbeats 4000000 in
/-- The body on whole staging memrefs, the inputs' at read contents `x0 … x6` and the outputs' at anything, runs to
    the continuation holding the inputs' as they were and the two outputs' at `out0_7`, `out0_8` of the inputs'. -/
theorem sound_kernel0 (c : Dev nD) (E : Set ℕ) (i : grid0.Coords) (arg1 : Memref sig .tc .vmem S200x10000 .f32) (harg1 : arg1.IsWhole) (arg2 : Memref sig .tc .vmem S10000x128 .f32) (harg2 : arg2.IsWhole) (arg3 : Memref sig .tc .vmem S200x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S256x16 .f32) (harg6 : arg6.IsWhole) (arg7 : Memref sig .tc .vmem S1x16 .f32) (harg7 : arg7.IsWhole) (arg8 : Memref sig .tc .vmem S200x16 .f32) (harg8 : arg8.IsWhole) (arg9 : Memref sig .tc .vmem S200x16 .f32) (harg9 : arg9.IsWhole)
    (x0 : Vec F S200x10000 .f32) (x1 : Vec F S10000x128 .f32) (x2 : Vec F S200x128 .f32) (x3 : Vec F S256x128 .f32) (x4 : Vec F S1x128 .f32) (x5 : Vec F S256x16 .f32) (x6 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8 arg9 harg9) K := by
  simp only [cc0__pass1_kernel_eq_skeleton]; unfold cc0__pass1_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (coverOut0 (F := F) _)
  iexists _; isplitr
  swap; · iexact H8
  ipureintro
  try dsimp only
  exact View.read_writes_eq_canon _ _ _ (coverOut0 (F := F) _)

/-! ## The pipeline's proof data -/

/-- The proof data of this pass on core `c`: the arrays as the region finds them; after the body at point `t` each
    input's buffer at its block and each output's at the stores' payloads of the input blocks; the invariant only the
    scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t)
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' buffers hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Share0.lean ====
/-
  The first pass reads the feature table through two windows (the whole table, and the block's rows): the table's
  buffer is dealt between them, half the share each, when the pass is entered, and the halves are joined when it ends.
  Every other array of the pass belongs to one window, at the full share.
-/
import proofs.«158636_g53910429499711_cont_9to1_m_389_3_alg».proof.Proof.KI.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the first pass's nine windows. -/
theorem arrImage0 : Finset.univ.image (Pipeline.arrRef spec0) = ([main_arg1, main_arg0, main_arg2, main_call0_v0, main_arg4, main_call0_v1, main_call0_v2_0, main_call0_v2_1] : List (Ref sig .tc)).toFinset := by decide

/-- Those buffers, each whole at the full share, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0) ∗ (((c : Thread nD τ).loc main_arg2) ↦{fullShare} W main_arg2) ∗ (((c : Thread nD τ).loc main_call0_v0) ↦{fullShare} W main_call0_v0) ∗ (((c : Thread nD τ).loc main_arg4) ↦{fullShare} W main_arg4) ∗ (((c : Thread nD τ).loc main_call0_v1) ↦{fullShare} W main_call0_v1) ∗ (((c : Thread nD τ).loc main_call0_v2_0) ↦{fullShare} W main_call0_v2_0) ∗ (((c : Thread nD τ).loc main_call0_v2_1) ↦{fullShare} W main_call0_v2_1)) := by
  unfold Pipeline.arrBufs
  exact bigSep_eq_bigSepL_of_eq [main_arg1, main_arg0, main_arg2, main_call0_v0, main_arg4, main_call0_v1, main_call0_v2_0, main_call0_v2_1] arrImage0 (by decide) _

/-- The share each window holds its array at: the two windows on the feature table half each, the others the whole. -/
theorem share0_0 (c : Dev nD) : (dat0 V c).share 0 = fullShare := rfl
theorem share0_1 (c : Dev nD) : (dat0 V c).share 1 = fullShare.left := rfl
theorem share0_2 (c : Dev nD) : (dat0 V c).share 2 = fullShare.right := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl
theorem share0_7 (c : Dev nD) : (dat0 V c).share 7 = fullShare := rfl
theorem share0_8 (c : Dev nD) : (dat0 V c).share 8 = fullShare := rfl

/-- The pass's arrays at contents `G`, window by window. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg1) ↦{fullShare} G 0) ∗ (((c : Thread nD τ).loc main_arg0) ↦{fullShare.left} G 1) ∗ (((c : Thread nD τ).loc main_arg0) ↦{fullShare.right} G 2) ∗ (((c : Thread nD τ).loc main_arg2) ↦{fullShare} G 3) ∗ (((c : Thread nD τ).loc main_call0_v0) ↦{fullShare} G 4) ∗ (((c : Thread nD τ).loc main_arg4) ↦{fullShare} G 5) ∗ (((c : Thread nD τ).loc main_call0_v1) ↦{fullShare} G 6) ∗ (((c : Thread nD τ).loc main_call0_v2_0) ↦{fullShare} G 7) ∗ (((c : Thread nD τ).loc main_call0_v2_1) ↦{fullShare} G 8)) := by
  unfold Pipeline.Dat.arrays
  rw [bigSep_W0]
  rw [share0_0, share0_1, share0_2, share0_3, share0_4, share0_5, share0_6, share0_7, share0_8]
  rw [(arr_whole0 0).set_eq_univ, (arr_whole0 1).set_eq_univ, (arr_whole0 3).set_eq_univ, (arr_whole0 4).set_eq_univ, (arr_whole0 5).set_eq_univ, (arr_whole0 6).set_eq_univ, (arr_whole0 7).set_eq_univ, (arr_whole0 8).set_eq_univ]

/-- ENTRY: the buffers at contents `W` are the pass's arrays at the same contents, the feature table's share halved. -/
theorem arrays0_of_bufs (c : Dev nD) (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    (Pipeline.arrBufs (Ix := Unit) (Name := ℕ) (U := UR sig nD τ) (Lvl := ℕ) spec0 c W : sProp 𝕄) ⊢ (dat0 V c).arrays G := by
  rw [arrBufs0_eq, arrays0_eq, hG 0, hG 1, hG 2, hG 3, hG 4, hG 5, hG 6, hG 7, hG 8]
  iintro ⟨H1, H0, H2, H3, H4, H5, H6, H7⟩
  ihave H0' := (pointsTo_share (PosShare.mem_left_op_right fullShare)).1 $$ H0
  icases H0' with ⟨H0l, H0r⟩
  isplitl [H1]; · iexact H1
  isplitl [H0l]; · iexact H0l
  isplitl [H0r]; · iexact H0r
  isplitl [H2]; · iexact H2
  isplitl [H3]; · iexact H3
  isplitl [H4]; · iexact H4
  isplitl [H5]; · iexact H5
  isplitl [H6]; · iexact H6
  iexact H7

/-- EXIT: the pass's arrays at contents `G` that agree with `W'` are the buffers at `W'`, the two halves of the
    feature table (both windows read it: they hold the same contents) joined. -/
theorem bufs_of_arrays0 (c : Dev nD) (W' : (b : Ref sig .tc) → Buf (Elt F) ((c : Thread nD τ).loc b))
    (G : (w : Fin cfg0.W) → Buf (Elt F) ((cfg0.win w).arr.view.loc (c : Thread nD τ))) (hG : ∀ w, G w = W' (Pipeline.arrRef spec0 w)) :
    ((dat0 V c).arrays G : sProp 𝕄) ⊢ Pipeline.arrBufs (Ix := Unit) (Name := ℕ) (U := UR sig nD τ) (Lvl := ℕ) spec0 c W' := by
  rw [arrBufs0_eq, arrays0_eq, hG 0, hG 1, hG 2, hG 3, hG 4, hG 5, hG 6, hG 7, hG 8]
  iintro ⟨H1, H0l, H0r, H2, H3, H4, H5, H6, H7⟩
  isplitl [H1]; · iexact H1
  isplitl [H0l H0r]
  · iapply (pointsTo_share (PosShare.mem_left_op_right fullShare)).2
    isplitl [H0l]; · iexact H0l
    iexact H0r
  isplitl [H2]; · iexact H2
  isplitl [H3]; · iexact H3
  isplitl [H4]; · iexact H4
  isplitl [H5]; · iexact H5
  isplitl [H6]; · iexact H6
  iexact H7

end Cert.KernelIdeal.Hand

end
-- ==== Proof.KI.Body1.lean ====
/-
  The second pass (rows of the adjacency matrix in blocks of 200) as a pipeline body, at any float instance.

  At grid point `t` the body finds in its three input buffers the block of the adjacency matrix, the whole 16-wide
  neighbour-half table the first pass wrote and the block's rows of the own-half table, and leaves in its output buffer
  the block's log-softmax rows: one store's payload over the whole buffer. The inputs' buffers are left as found.
  Stated per core over the contents `V` the region is entered from.
-/
import proofs.«158636_g53910429499711_cont_9to1_m_389_3_alg».proof.Proof.Gen.KernelIdeal.Launch
import proofs.«158636_g53910429499711_cont_9to1_m_389_3_alg».proof.Proof.Gen.KernelIdeal.Skeleton
import proofs.«158636_g53910429499711_cont_9to1_m_389_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not (unfetched, the block index has
    not moved), for any proof data whose array is `V`'s and whose body leaves the block in place. One lemma per input
    window: a window's block type is its own. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The rectangle the store writes through: the whole [200,16] buffer. -/
abbrev rOut1 : Rect S200x16 := Rect.unit (s := S200x16) ![0, 0] S200x16.size inb_S200x16_S200x16_0_0

/-- The rectangles the loads read through: each input buffer whole. -/
abbrev rIn1_0 : Rect S200x10000 := Rect.unit (s := S200x10000) ![0, 0] S200x10000.size inb_S200x10000_S200x10000_0_0
abbrev rIn1_1 : Rect S10000x16 := Rect.unit (s := S10000x16) ![0, 0] S10000x16.size inb_S10000x16_S10000x16_0_0
abbrev rIn1_2 : Rect S200x16 := Rect.unit (s := S200x16) ![0, 0] S200x16.size inb_S200x16_S200x16_0_0

/-- The output buffer after the body: the store's payload (of the loaded blocks) over the whole buffer. -/
def out1_3 (x0 : Vec F S200x10000 .f32) (x1 : Vec F S10000x16 .f32) (x2 : Vec F S200x16 .f32) : Vec F S200x16 .f32 :=
  View.canon [⟨rOut1, k1_pay1 (View.ld x0 rIn1_0) (View.ld x1 rIn1_1) (View.ld x2 rIn1_2)⟩]

/-- A store through the whole-buffer rectangle covers the buffer. -/
theorem coverOut1 (p0 : Vec F S200x16 .f32) (y : S200x16.Idx) :
    ∃ pc ∈ ([⟨rOut1, p0⟩] : List (View.Piece (Elt F) S200x16 .f32)), y ∈ pc.1.set :=
  View.cover_of_tiled [⟨rOut1, p0⟩] S200x16.size (by rfl) y

/-! ## The body's triple -/

set_option maxHeartbeats 4000000 in
/-- The body on whole staging memrefs, the inputs' at read contents `x0 x1 x2` and the output's at anything, runs to
    the continuation holding the inputs' as they were and the output's at `out1_3` of the inputs'. -/
theorem sound_kernel1 (c : Dev nD) (E : Set ℕ) (i : grid1.Coords) (arg1 : Memref sig .tc .vmem S200x10000 .f32) (harg1 : arg1.IsWhole) (arg2 : Memref sig .tc .vmem S10000x16 .f32) (harg2 : arg2.IsWhole) (arg3 : Memref sig .tc .vmem S200x16 .f32) (harg3 : arg3.IsWhole) (arg4 : Memref sig .tc .vmem S200x16 .f32) (harg4 : arg4.IsWhole)
    (x0 : Vec F S200x10000 .f32) (x1 : Vec F S10000x16 .f32) (x2 : Vec F S200x16 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__pass2_kernel i arg1 harg1 arg2 harg2 arg3 harg3 arg4 harg4) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (coverOut1 (F := F) _)

/-! ## The pipeline's proof data -/

/-- The proof data of this pass on core `c`: the arrays as the region finds them; after the body at point `t` each
    input's buffer at its block and each output's at the stores' payloads of the input blocks; the invariant only the
    scoped rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare
    | ⟨1, _⟩ => fullShare
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program at any float instance: the two reshapes of the bias vectors, the first pass, the second pass.

  The buffer contents between the items are a fold from the launch memory: after the reshapes (`W1`), after the first
  pass (`W2`: its two output tables at what its fifty write-backs leave, everything else as it was), after the second
  pass (`W3`: the result at what its write-backs leave). Each pass is entered from every unscoped buffer held at the
  contents before it and left with them held at the contents after it; beside the buffers ride the generator register
  and the core owing nothing. The run ends with every unscoped buffer at `W3`: the arguments as launched, the result
  at the second pass's final array.
-/
import proofs.«158636_g53910429499711_cont_9to1_m_389_3_alg».proof.Proof.KI.Share0
import proofs.«158636_g53910429499711_cont_9to1_m_389_3_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between the items -/

/-- Core `c`'s buffers at launch. -/
abbrev W0 (c : Dev nD) : Valuation τ sig (Elt F) := fun b => m (c, b)
/-- After the two reshapes. -/
abbrev W1 (c : Dev nD) : Valuation τ sig (Elt F) := StableHlo.after hostOps0 (W0 m c)
/-- The same read at the TensorCore's references: what the first pass is entered from. -/
abbrev V1 : (c : Dev nD) → (b : Ref sig .tc) → Buf (Elt F) ((c : Thread nD τ).loc b) := fun c b => W1 m c b
/-- After the first pass: its two output tables at what the write-backs leave. -/
def W2 (c : Dev nD) : Valuation τ sig (Elt F) :=
  Function.update (Function.update (W1 m c) main_call0_v2_0 ((dat0 (V1 m) c).arrAt 7 cfg0.N)) main_call0_v2_1 ((dat0 (V1 m) c).arrAt 8 cfg0.N)
abbrev V2 : (c : Dev nD) → (b : Ref sig .tc) → Buf (Elt F) ((c : Thread nD τ).loc b) := fun c b => W2 m c b
/-- After the second pass: the result at what the write-backs leave. -/
def W3 (c : Dev nD) : Valuation τ sig (Elt F) :=
  Function.update (W2 m c) main_v0 ((dat1 (V2 m) c).arrAt 3 cfg1.N)
abbrev V3 : (c : Dev nD) → (b : Ref sig .tc) → Buf (Elt F) ((c : Thread nD τ).loc b) := fun c b => W3 m c b

theorem W2_of (c : Dev nD) (r : Ref sig .tc) (h : r ∉ ([main_call0_v2_0, main_call0_v2_1] : List (Ref sig .tc))) : W2 m c r = W1 m c r := by
  simp only [W2, Function.update_of_ne (StableHlo.devRef_ne_of_ne (List.ne_of_not_mem_cons h) : (Proc.devRef .tc r : DevRef τ sig) ≠ Proc.devRef .tc main_call0_v2_0), Function.update_of_ne (StableHlo.devRef_ne_of_ne (List.ne_of_not_mem_cons (List.not_mem_of_not_mem_cons h)) : (Proc.devRef .tc r : DevRef τ sig) ≠ Proc.devRef .tc main_call0_v2_1)]
theorem W2_v2_0 (c : Dev nD) : W2 m c main_call0_v2_0 = (dat0 (V1 m) c).arrAt 7 cfg0.N := by
  unfold W2
  rw [Function.update_of_ne (StableHlo.devRef_ne_of_ne (by decide) : (Proc.devRef .tc main_call0_v2_0 : DevRef τ sig) ≠ Proc.devRef .tc main_call0_v2_1), Function.update_self]
theorem W2_v2_1 (c : Dev nD) : W2 m c main_call0_v2_1 = (dat0 (V1 m) c).arrAt 8 cfg0.N := by
  unfold W2; rw [Function.update_self]
theorem W3_of (c : Dev nD) (r : Ref sig .tc) (h : r ∉ ([main_v0] : List (Ref sig .tc))) : W3 m c r = W2 m c r := by
  simp only [W3, Function.update_of_ne (StableHlo.devRef_ne_of_ne (List.ne_of_not_mem_cons h) : (Proc.devRef .tc r : DevRef τ sig) ≠ Proc.devRef .tc main_v0)]
theorem W3_v0 (c : Dev nD) : W3 m c main_v0 = (dat1 (V2 m) c).arrAt 3 cfg1.N := by
  unfold W3; rw [Function.update_self]

/-- The references the reshapes write. -/
theorem hostOps0_writes : (hostOps0 : List (HloOp τ sig (Elt F))).Forall fun op => op.writes ⊆ (([main_call0_v0, main_call0_v1] : List (Ref sig .tc)).map (Proc.devRef (τ := τ) .tc)).toFinset := by
  simp only [List.Forall]
  exact ⟨by simp only [StableHlo.reshape_writes, Finset.singleton_subset_iff, List.mem_toFinset]; exact List.mem_map_of_mem (by decide),
    by simp only [StableHlo.reshape_writes, Finset.singleton_subset_iff, List.mem_toFinset]; exact List.mem_map_of_mem (by decide)⟩
theorem W1_of (c : Dev nD) (r : Ref sig .tc) (h : r ∉ ([main_call0_v0, main_call0_v1] : List (Ref sig .tc))) : W1 m c r = W0 m c r :=
  StableHlo.after_of_writes_sub hostOps0 _ hostOps0_writes h
theorem hostOps0_fresh : (hostOps0 : List (HloOp τ sig (Elt F))).Forall fun op => op.fresh = ∅ := by
  simp only [List.Forall]; repeat' constructor

/-- No item writes an argument: each reaches the end as launched. -/
theorem W3_main_arg0 (c : Dev nD) : W3 m c main_arg0 = m ((c : Thread nD τ).loc main_arg0) :=
  (W3_of m c main_arg0 (by decide)).trans <| (W2_of m c main_arg0 (by decide)).trans <| (W1_of m c main_arg0 (by decide)).trans rfl
theorem W3_main_arg1 (c : Dev nD) : W3 m c main_arg1 = m ((c : Thread nD τ).loc main_arg1) :=
  (W3_of m c main_arg1 (by decide)).trans <| (W2_of m c main_arg1 (by decide)).trans <| (W1_of m c main_arg1 (by decide)).trans rfl
theorem W3_main_arg2 (c : Dev nD) : W3 m c main_arg2 = m ((c : Thread nD τ).loc main_arg2) :=
  (W3_of m c main_arg2 (by decide)).trans <| (W2_of m c main_arg2 (by decide)).trans <| (W1_of m c main_arg2 (by decide)).trans rfl
theorem W3_main_arg3 (c : Dev nD) : W3 m c main_arg3 = m ((c : Thread nD τ).loc main_arg3) :=
  (W3_of m c main_arg3 (by decide)).trans <| (W2_of m c main_arg3 (by decide)).trans <| (W1_of m c main_arg3 (by decide)).trans rfl
theorem W3_main_arg4 (c : Dev nD) : W3 m c main_arg4 = m ((c : Thread nD τ).loc main_arg4) :=
  (W3_of m c main_arg4 (by decide)).trans <| (W2_of m c main_arg4 (by decide)).trans <| (W1_of m c main_arg4 (by decide)).trans rfl
theorem W3_main_arg5 (c : Dev nD) : W3 m c main_arg5 = m ((c : Thread nD τ).loc main_arg5) :=
  (W3_of m c main_arg5 (by decide)).trans <| (W2_of m c main_arg5 (by decide)).trans <| (W1_of m c main_arg5 (by decide)).trans rfl

/-! ## The proof data family and what rides beside the buffers -/

/-- No pass has a prefetched table. -/
abbrev adm : (p : Fin 2) → (pcfgs (F := F) p).Adm := fun p => (cfgs p).toPCfg_adm
/-- Each pass's proof data at the contents it is entered from. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state and the core owing nothing. -/
abbrev R (c : Dev nD) : sProp 𝕄 := iprop((∃ r, prngReg c r) ∗ ∃ W, owes (c : Thread nD τ) (0 : CellTallies nD τ sig Unit) W)
/-- The reshapes as a segment, from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W3`, the generator register at some state. -/
abbrev Tₙ (c : Dev nD) : sProp 𝕄 := iprop(StableHlo.held (c : Thread nD τ) (Pipeline.ucRefs τ sig) (W3 m c) ∗ ∃ r, prngReg c r)

/-! ## The first pass's exit contents agree with its arrays -/

theorem hF0 (c : Dev nD) : ∀ w : Fin cfg0.W, (dat0 (V1 m) c).arrAt w cfg0.N = V2 m c (Pipeline.arrRef spec0 w) := by
  intro w; match w with
  | ⟨0, _⟩ => exact ((dat0 (V1 m) c).arrAt_in 0 rfl _).trans ((A_eq0 (V1 m) c 0).trans (W2_of m c _ (by decide)).symm)
  | ⟨1, _⟩ => exact ((dat0 (V1 m) c).arrAt_in 1 rfl _).trans ((A_eq0 (V1 m) c 1).trans (W2_of m c _ (by decide)).symm)
  | ⟨2, _⟩ => exact ((dat0 (V1 m) c).arrAt_in 2 rfl _).trans ((A_eq0 (V1 m) c 2).trans (W2_of m c _ (by decide)).symm)
  | ⟨3, _⟩ => exact ((dat0 (V1 m) c).arrAt_in 3 rfl _).trans ((A_eq0 (V1 m) c 3).trans (W2_of m c _ (by decide)).symm)
  | ⟨4, _⟩ => exact ((dat0 (V1 m) c).arrAt_in 4 rfl _).trans ((A_eq0 (V1 m) c 4).trans (W2_of m c _ (by decide)).symm)
  | ⟨5, _⟩ => exact ((dat0 (V1 m) c).arrAt_in 5 rfl _).trans ((A_eq0 (V1 m) c 5).trans (W2_of m c _ (by decide)).symm)
  | ⟨6, _⟩ => exact ((dat0 (V1 m) c).arrAt_in 6 rfl _).trans ((A_eq0 (V1 m) c 6).trans (W2_of m c _ (by decide)).symm)
  | ⟨7, _⟩ => exact (W2_v2_0 m c).symm
  | ⟨8, _⟩ => exact (W2_v2_1 m c).symm
theorem hrest0 (c : Dev nD) : ∀ b, b ∉ Finset.univ.image (Pipeline.arrRef spec0) → V2 m c b = V1 m c b := fun b hb =>
  W2_of m c b (by
    rw [arrImage0] at hb
    intro h
    rcases List.mem_cons.mp h with rfl | h
    · exact hb (by decide)
    · rcases List.mem_cons.mp h with rfl | h
      · exact hb (by decide)
      · exact absurd h (List.not_mem_nil))
theorem hF1 (c : Dev nD) : ∀ w : Fin cfg1.W, (dat1 (V2 m) c).arrAt w cfg1.N = V3 m c (Pipeline.arrRef spec1 w) := by
  intro w; match w with
  | ⟨0, _⟩ => exact ((dat1 (V2 m) c).arrAt_in 0 rfl _).trans ((A_eq1 (V2 m) c 0).trans (W3_of m c _ (by decide)).symm)
  | ⟨1, _⟩ => exact ((dat1 (V2 m) c).arrAt_in 1 rfl _).trans ((A_eq1 (V2 m) c 1).trans (W3_of m c _ (by decide)).symm)
  | ⟨2, _⟩ => exact ((dat1 (V2 m) c).arrAt_in 2 rfl _).trans ((A_eq1 (V2 m) c 2).trans (W3_of m c _ (by decide)).symm)
  | ⟨3, _⟩ => exact (W3_v0 m c).symm
theorem hrest1 (c : Dev nD) : ∀ b, b ∉ Finset.univ.image (Pipeline.arrRef spec1) → V3 m c b = V2 m c b := fun b hb =>
  W3_of m c b (by
    intro h
    rcases List.mem_cons.mp h with rfl | h
    · exact hb (by decide)
    · exact absurd h (List.not_mem_nil))

/-! ## The passes as segments -/

set_option backward.isDefEq.respectTransparency.types false in
/-- The first pass: entered from every unscoped buffer at `W1`, left at `W2`. Its arrays are split out of the unscoped
    buffers (the feature table's share halved between its two windows) and put back at the exit contents; the generator
    register goes into the invariant and comes out; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs (Ix := Unit) (Name := ℕ) (U := UR sig nD τ) (Lvl := ℕ) c (V1 m c) : sProp 𝕄)
        ⊢ iprop((pdats m 0 c).arrays ((pdats m 0 c).arrAt · 0) ∗ Pipeline.unscopedRest spec0 c (V1 m c)) := by
      rw [Pipeline.unscopedBufs_split₀ cfgs 0 winFacts₀0.arr_unscoped c (V1 m c)]
      exact sep_mono (arrays0_of_bufs (V1 m) c (V1 m c) _ fun _ => rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : (iprop((pdats m 0 c).arrays ((pdats m 0 c).arrAt · cfg0.N) ∗ Pipeline.unscopedRest spec0 c (V1 m c)) : sProp 𝕄)
        ⊢ unscopedBufs (Ix := Unit) (Name := ℕ) (U := UR sig nD τ) (Lvl := ℕ) c (V2 m c) := by
      rw [Pipeline.unscopedBufs_split₀ cfgs 0 winFacts₀0.arr_unscoped c (V2 m c)]
      refine sep_mono (bufs_of_arrays0 (V1 m) c (V2 m c) _ (hF0 m c)) (Entails.of_eq ?_)
      unfold Pipeline.unscopedRest
      exact bigSep_congr fun b hb => by rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass: entered from every unscoped buffer at `W2`, left at `W3` (what the launch reads at the end). Its
    arrays are distinct buffers, each held whole. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full (fun w => by match w with | ⟨0, _⟩ => rfl | ⟨1, _⟩ => rfl | ⟨2, _⟩ => rfl | ⟨3, _⟩ => rfl)) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full (fun w => by match w with | ⟨0, _⟩ => rfl | ⟨1, _⟩ => rfl | ⟨2, _⟩ => rfl | ⟨3, _⟩ => rfl))
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg0 m), .region (reg0 m), .region (reg1 m) ]
/-- The program is the run of the segments. -/
theorem main_run (c : Dev nD) : main (F := F) c = Pipeline.Seg.run (segs m) := (main_chain c).trans (by chain_rfl)

set_option backward.isDefEq.respectTransparency.types false in
/-- THE RUN, at any float instance: from any memory with zero counters every weakly fair execution of the program on
    the TensorCores terminates, nothing faulting, and every final memory holds every unscoped buffer at `W3`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c)⟩) (run_all m ρ)

/-- The run with the result named: the second pass's final array, the arguments as launched. -/
theorem run_value (ρ : Dev nD → PrngReg) : θ_run defs (onTc (τ := τ) (main (F := F))) ⟨m, fun _ => 0, ρ⟩ (fun r => ∀ c : Dev nD,
      r.2.mem ((c.tc : Thread nD τ).loc main_v0) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_v0 (by decide))).trans (W3_v0 m c),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c)⟩) (run_all m ρ)

end Cert.KernelIdeal.Hand

end
-- ==== Proof.Spec.lean ====
/-
  The two-layer mean-aggregator network both programs compute, written once as plain functions of the
  argument arrays, one output ROW at a time.

  With a row `arow` of the adjacency matrix, the degree is `max (∑ j, arow j) ε` (ε the f32 word of 1e-12), and the
  neighbour mean of a table `v` is `(∑ j, arow j * v j k) / degree`. A layer multiplies the node's own row by the top
  128 rows of its 256-row weight matrix and the neighbour mean by the bottom 128 rows.

  The kernel's form of the second layer keeps the two halves apart: `yself` (own half plus bias) and `yneigh` (the
  hidden row times the bottom half), and aggregates the 16-wide `yneigh` table, `logitsK = yself + mean(yneigh)`.
  The reference's form concatenates a row with its neighbour mean and multiplies by the whole matrix (`hidR`,
  `logitsR`). Both end in the same row-wise log-softmax `lsm`.
-/
import Idealize.ShloMosaic.PureOps.Ideal
import Idealize.ShloMosaic.Lib.ValueIdx

noncomputable section

namespace Cert.Sage

open Idealize.ShloMosaic Idealize.ShloMosaic.ValueIdx

/-- A rank-two array read by two coordinates. -/
def arr2 {n0 n1 : Nat} (A : (⟨2, ![n0, n1]⟩ : Shape).Idx → EReal) : Fin n0 → Fin n1 → EReal := fun i j => A (ix2 i j)
/-- A rank-one array read by its coordinate. -/
def arr1 {n : Nat} (A : (⟨1, ![n]⟩ : Shape).Idx → EReal) : Fin n → EReal := fun i => A (ix1 i)
/-- A function of two coordinates as a rank-two array. -/
def unarr2 {n0 n1 : Nat} (f : Fin n0 → Fin n1 → EReal) : (⟨2, ![n0, n1]⟩ : Shape).Idx → EReal :=
  fun i => f ⟨(i 0).val, idx2_lt0 i⟩ ⟨(i 1).val, idx2_lt1 i⟩

theorem unarr2_ix2 {n0 n1 : Nat} (f : Fin n0 → Fin n1 → EReal) (p : Fin n0) (q : Fin n1) : unarr2 f (ix2 p q) = f p q := rfl

/-- The floor both programs clamp a degree at: the f32 word of 1e-12, read exactly. -/
def eps : EReal := Ideal.ofBits .f32 0x2B8CBCCC#32

/-- Row `k` of a weight matrix's top half (it multiplies the node's own features), -/
def lo (k : Fin 128) : Fin 256 := ⟨k.val, by omega⟩
/-- and of its bottom half (it multiplies the neighbour mean). -/
def hi (k : Fin 128) : Fin 256 := ⟨128 + k.val, by omega⟩

/-- A node's clamped degree, from its row of the adjacency matrix. -/
def deg (arow : Fin 10000 → EReal) : EReal := max (∑ j, arow j) eps

/-- The neighbour mean of a table `v` at column `k`. -/
def agg {n : Nat} (arow : Fin 10000 → EReal) (v : Fin 10000 → Fin n → EReal) (k : Fin n) : EReal :=
  Ideal.div (∑ j, arow j * v j k) (deg arow)

/-- The hidden row, the two halves of the first weight matrix applied apart. -/
def hid (arow : Fin 10000 → EReal) (xrow : Fin 128 → EReal) (x : Fin 10000 → Fin 128 → EReal)
    (w1 : Fin 256 → Fin 128 → EReal) (b1 : Fin 128 → EReal) (k : Fin 128) : EReal :=
  max (((∑ l, xrow l * w1 (lo l) k) + (∑ l, agg arow x l * w1 (hi l) k)) + b1 k) 0

/-- The second layer's own half, with the bias. -/
def yself (arow : Fin 10000 → EReal) (xrow : Fin 128 → EReal) (x : Fin 10000 → Fin 128 → EReal)
    (w1 : Fin 256 → Fin 128 → EReal) (b1 : Fin 128 → EReal) (w2 : Fin 256 → Fin 16 → EReal) (b2 : Fin 16 → EReal) (c : Fin 16) : EReal :=
  (∑ k, hid arow xrow x w1 b1 k * w2 (lo k) c) + b2 c

/-- The hidden row times the bottom half of the second weight matrix: what the second pass aggregates. -/
def yneigh (arow : Fin 10000 → EReal) (xrow : Fin 128 → EReal) (x : Fin 10000 → Fin 128 → EReal)
    (w1 : Fin 256 → Fin 128 → EReal) (b1 : Fin 128 → EReal) (w2 : Fin 256 → Fin 16 → EReal) (c : Fin 16) : EReal :=
  ∑ k, hid arow xrow x w1 b1 k * w2 (hi k) c

/-- The kernel's logits of a row: its own half plus the neighbour mean of the 16-wide table. -/
def logitsK (arow : Fin 10000 → EReal) (ys : Fin 16 → EReal) (yn : Fin 10000 → Fin 16 → EReal) (c : Fin 16) : EReal :=
  ys c + agg arow yn c

/-- A row's maximum, folded from -∞. -/
def rowMax (z : Fin 16 → EReal) : EReal := (Finset.univ : Finset (Fin 16)).fold max ⊥ z

/-- The row-wise log-softmax both programs end in. -/
def lsm (z : Fin 16 → EReal) (c : Fin 16) : EReal :=
  (z c - rowMax z) - Ideal.log (∑ c', Ideal.exp (z c' - rowMax z))

/-- A row joined with a second row, as the reference's concatenate lays them out. -/
def cat (u v : Fin 128 → EReal) (l : Fin 256) : EReal :=
  if h : l.val < 128 then u ⟨l.val, h⟩ else v ⟨l.val - 128, by omega⟩

/-- The reference's hidden row: the joined row times the whole first weight matrix. -/
def hidR (arow : Fin 10000 → EReal) (xrow : Fin 128 → EReal) (x : Fin 10000 → Fin 128 → EReal)
    (w1 : Fin 256 → Fin 128 → EReal) (b1 : Fin 128 → EReal) (k : Fin 128) : EReal :=
  max ((∑ l : Fin 256, cat xrow (agg arow x) l * w1 l k) + b1 k) 0

/-- The reference's logits of a row, from its hidden row `hrow` and the hidden table `H`. -/
def logitsR (arow : Fin 10000 → EReal) (hrow : Fin 128 → EReal) (H : Fin 10000 → Fin 128 → EReal)
    (w2 : Fin 256 → Fin 16 → EReal) (b2 : Fin 16 → EReal) (c : Fin 16) : EReal :=
  (∑ l : Fin 256, cat hrow (agg arow H) l * w2 l c) + b2 c

/-- The kernel's result, entry by entry. -/
def outK (a : Fin 10000 → Fin 10000 → EReal) (x : Fin 10000 → Fin 128 → EReal) (w1 : Fin 256 → Fin 128 → EReal)
    (b1 : Fin 128 → EReal) (w2 : Fin 256 → Fin 16 → EReal) (b2 : Fin 16 → EReal) (i : Fin 10000) (c : Fin 16) : EReal :=
  lsm (logitsK (a i) (yself (a i) (x i) x w1 b1 w2 b2) (fun j => yneigh (a j) (x j) x w1 b1 w2)) c

/-- The reference's result, entry by entry. -/
def outR (a : Fin 10000 → Fin 10000 → EReal) (x : Fin 10000 → Fin 128 → EReal) (w1 : Fin 256 → Fin 128 → EReal)
    (b1 : Fin 128 → EReal) (w2 : Fin 256 → Fin 16 → EReal) (b2 : Fin 16 → EReal) (i : Fin 10000) (c : Fin 16) : EReal :=
  lsm (logitsR (a i) (hidR (a i) (x i) x w1 b1) (fun j => hidR (a j) (x j) x w1 b1) w2 b2) c

/-- Every entry of a table is a real number. -/
def Real2 {n0 n1 : Nat} (f : Fin n0 → Fin n1 → EReal) : Prop := ∀ i j, ∃ r : ℝ, f i j = (r : EReal)
def Real1 {n : Nat} (f : Fin n → EReal) : Prop := ∀ i, ∃ r : ℝ, f i = (r : EReal)

end Cert.Sage

end
-- ==== Proof.KI.Value0.lean ====
/-
  The first pass's two output arrays after all fifty write-backs, each as one function of the contents the region is
  entered from.

  Row block `t` of an output is written back at point `t`, and what is written is the store's payload of the input
  blocks at `t`. The adjacency block and the feature-rows block hold rows `200 t …` of their arrays and the other
  windows hold their whole arrays, so a payload that row by row is a function of its blocks' rows writes, at row `p`
  of block `t`, that function of rows `200 t + p`. The fifty row blocks tile the [10000,16] array: row `r` is in the
  block of point `r / 200`.
-/
import proofs.«158636_g53910429499711_cont_9to1_m_389_3_alg».proof.Proof.KI.Body0
import proofs.«158636_g53910429499711_cont_9to1_m_389_3_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Sage
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ### The index maps, and each input block as rows of its array -/

theorem zeros2 : (![0, 0] : Fin 2 → Nat) = fun _ => 0 := funext fun a => by fin_cases a <;> rfl

/-- The printed index maps over the grid: the adjacency block, the feature rows and the two outputs sit at
    row block `t`; the whole feature table, the weights and the bias rows at block zero. -/
theorem index_facts0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

theorem point_lt (t : Fin cfg0.N) : t.val < 50 := t.isLt

/-- Row `p` of row block `t`. -/
def row0 (t : Fin cfg0.N) (p : Fin 200) : Fin 10000 := ⟨200 * t.val + p.val, by have := point_lt t; omega⟩

/-- The adjacency block at point `t` holds rows `200 t …` of the matrix. -/
theorem iblk0_0_apply (c : Dev nD) (t : Fin cfg0.N) (p : Fin 200) (j : Fin 10000) :
    (iblk0 V c 0 t : Vec Ideal S200x10000 .f32) (ix2 p j) = (V c main_arg1 : S10000x10000.Idx → EReal) (ix2 (row0 t p) j) := by
  obtain ⟨⟨e0, e1⟩, -⟩ := index_facts0 t
  show V c main_arg1 (((cfg0.win 0).blk t).view.emb (ix2 p j)) = V c main_arg1 (ix2 (row0 t p) j)
  refine congrArg _ (funext fun a => Fin.ext ?_)
  match a with
  | ⟨0, _⟩ => show win0_0.index t (0 : Fin 2) * 200 + 1 * p.val = 200 * t.val + p.val; rw [e0]; omega
  | ⟨1, _⟩ => show win0_0.index t (1 : Fin 2) * 10000 + 1 * j.val = j.val; rw [e1]; omega

/-- The feature-rows block at point `t` holds rows `200 t …` of the feature table. -/
theorem iblk0_2_apply (c : Dev nD) (t : Fin cfg0.N) (p : Fin 200) (l : Fin 128) :
    (iblk0 V c 2 t : Vec Ideal S200x128 .f32) (ix2 p l) = (V c main_arg0 : S10000x128.Idx → EReal) (ix2 (row0 t p) l) := by
  obtain ⟨-, -, ⟨e0, e1⟩, -⟩ := index_facts0 t
  show V c main_arg0 (((cfg0.win 2).blk t).view.emb (ix2 p l)) = V c main_arg0 (ix2 (row0 t p) l)
  refine congrArg _ (funext fun a => Fin.ext ?_)
  match a with
  | ⟨0, _⟩ => show win0_2.index t (0 : Fin 2) * 200 + 1 * p.val = 200 * t.val + p.val; rw [e0]; omega
  | ⟨1, _⟩ => show win0_2.index t (1 : Fin 2) * 128 + 1 * l.val = l.val; rw [e1]; omega

/-- The windows over a whole array hold that array at every point. -/
theorem iblk0_1_apply (c : Dev nD) (t : Fin cfg0.N) (j : Fin 10000) (k : Fin 128) :
    (iblk0 V c 1 t : Vec Ideal S10000x128 .f32) (ix2 j k) = (V c main_arg0 : S10000x128.Idx → EReal) (ix2 j k) := by
  obtain ⟨-, ⟨e0, e1⟩, -⟩ := index_facts0 t
  show V c main_arg0 (((cfg0.win 1).blk t).view.emb (ix2 j k)) = V c main_arg0 (ix2 j k)
  refine congrArg _ (funext fun a => Fin.ext ?_)
  match a with
  | ⟨0, _⟩ => show win0_1.index t (0 : Fin 2) * 10000 + 1 * j.val = j.val; rw [e0]; omega
  | ⟨1, _⟩ => show win0_1.index t (1 : Fin 2) * 128 + 1 * k.val = k.val; rw [e1]; omega

theorem iblk0_3_apply (c : Dev nD) (t : Fin cfg0.N) (l : Fin 256) (k : Fin 128) :
    (iblk0 V c 3 t : Vec Ideal S256x128 .f32) (ix2 l k) = (V c main_arg2 : S256x128.Idx → EReal) (ix2 l k) := by
  obtain ⟨-, -, -, ⟨e0, e1⟩, -⟩ := index_facts0 t
  show V c main_arg2 (((cfg0.win 3).blk t).view.emb (ix2 l k)) = V c main_arg2 (ix2 l k)
  refine congrArg _ (funext fun a => Fin.ext ?_)
  match a with
  | ⟨0, _⟩ => show win0_3.index t (0 : Fin 2) * 256 + 1 * l.val = l.val; rw [e0]; omega
  | ⟨1, _⟩ => show win0_3.index t (1 : Fin 2) * 128 + 1 * k.val = k.val; rw [e1]; omega

theorem iblk0_4_apply (c : Dev nD) (t : Fin cfg0.N) (z : Fin 1) (k : Fin 128) :
    (iblk0 V c 4 t : Vec Ideal S1x128 .f32) (ix2 z k) = (V c main_call0_v0 : S1x128.Idx → EReal) (ix2 z k) := by
  obtain ⟨-, -, -, -, ⟨e0, e1⟩, -⟩ := index_facts0 t
  show V c main_call0_v0 (((cfg0.win 4).blk t).view.emb (ix2 z k)) = V c main_call0_v0 (ix2 z k)
  refine congrArg _ (funext fun a => Fin.ext ?_)
  match a with
  | ⟨0, _⟩ => show win0_4.index t (0 : Fin 2) * 1 + 1 * z.val = z.val; rw [e0]; omega
  | ⟨1, _⟩ => show win0_4.index t (1 : Fin 2) * 128 + 1 * k.val = k.val; rw [e1]; omega

theorem iblk0_5_apply (c : Dev nD) (t : Fin cfg0.N) (l : Fin 256) (q : Fin 16) :
    (iblk0 V c 5 t : Vec Ideal S256x16 .f32) (ix2 l q) = (V c main_arg4 : S256x16.Idx → EReal) (ix2 l q) := by
  obtain ⟨-, -, -, -, -, ⟨e0, e1⟩, -⟩ := index_facts0 t
  show V c main_arg4 (((cfg0.win 5).blk t).view.emb (ix2 l q)) = V c main_arg4 (ix2 l q)
  refine congrArg _ (funext fun a => Fin.ext ?_)
  match a with
  | ⟨0, _⟩ => show win0_5.index t (0 : Fin 2) * 256 + 1 * l.val = l.val; rw [e0]; omega
  | ⟨1, _⟩ => show win0_5.index t (1 : Fin 2) * 16 + 1 * q.val = q.val; rw [e1]; omega

theorem iblk0_6_apply (c : Dev nD) (t : Fin cfg0.N) (z : Fin 1) (q : Fin 16) :
    (iblk0 V c 6 t : Vec Ideal S1x16 .f32) (ix2 z q) = (V c main_call0_v1 : S1x16.Idx → EReal) (ix2 z q) := by
  obtain ⟨-, -, -, -, -, -, ⟨e0, e1⟩, -⟩ := index_facts0 t
  show V c main_call0_v1 (((cfg0.win 6).blk t).view.emb (ix2 z q)) = V c main_call0_v1 (ix2 z q)
  refine congrArg _ (funext fun a => Fin.ext ?_)
  match a with
  | ⟨0, _⟩ => show win0_6.index t (0 : Fin 2) * 1 + 1 * z.val = z.val; rw [e0]; omega
  | ⟨1, _⟩ => show win0_6.index t (1 : Fin 2) * 16 + 1 * q.val = q.val; rw [e1]; omega

/-- A function of seven arguments at equal arguments. -/
theorem congr7 {α0 α1 α2 α3 α4 α5 α6 β : Type} (Y : α0 → α1 → α2 → α3 → α4 → α5 → α6 → β)
    {a0 b0 : α0} {a1 b1 : α1} {a2 b2 : α2} {a3 b3 : α3} {a4 b4 : α4} {a5 b5 : α5} {a6 b6 : α6}
    (h0 : a0 = b0) (h1 : a1 = b1) (h2 : a2 = b2) (h3 : a3 = b3) (h4 : a4 = b4) (h5 : a5 = b5) (h6 : a6 = b6) :
    Y a0 a1 a2 a3 a4 a5 a6 = Y b0 b1 b2 b3 b4 b5 b6 := by
  subst h0 h1 h2 h3 h4 h5 h6; rfl

/-- A payload that at row `p` of its blocks is a function `Y` of the blocks' rows is, on the blocks of point `t`,
    that function of rows `200 t + p` of the adjacency matrix and the feature table and of the whole feature table,
    weights and biases. -/
theorem pay_rows0
    (P : Vec Ideal S200x10000 .f32 → Vec Ideal S10000x128 .f32 → Vec Ideal S200x128 .f32 → Vec Ideal S256x128 .f32
      → Vec Ideal S1x128 .f32 → Vec Ideal S256x16 .f32 → Vec Ideal S1x16 .f32 → Vec Ideal S200x16 .f32)
    (Y : (Fin 10000 → EReal) → (Fin 128 → EReal) → (Fin 10000 → Fin 128 → EReal) → (Fin 256 → Fin 128 → EReal)
      → (Fin 128 → EReal) → (Fin 256 → Fin 16 → EReal) → (Fin 16 → EReal) → Fin 16 → EReal)
    (hP : ∀ (v0 : Vec Ideal S200x10000 .f32) (v1 : Vec Ideal S10000x128 .f32) (v11 : Vec Ideal S200x128 .f32)
      (v12 : Vec Ideal S256x128 .f32) (v18 : Vec Ideal S1x128 .f32) (v24 : Vec Ideal S256x16 .f32) (v27 : Vec Ideal S1x16 .f32)
      (p : Fin 200) (q : Fin 16), P v0 v1 v11 v12 v18 v24 v27 (ix2 p q)
        = Y (fun j => v0 (ix2 p j)) (fun l => v11 (ix2 p l)) (fun j k => v1 (ix2 j k)) (fun l k => v12 (ix2 l k))
            (fun k => v18 (ix2 0 k)) (fun l c => v24 (ix2 l c)) (fun c => v27 (ix2 0 c)) q)
    (c : Dev nD) (t : Fin cfg0.N) (p : Fin 200) (q : Fin 16) :
    P (iblk0 V c 0 t) (iblk0 V c 1 t) (iblk0 V c 2 t) (iblk0 V c 3 t) (iblk0 V c 4 t) (iblk0 V c 5 t) (iblk0 V c 6 t) (ix2 p q)
      = Y (arr2 (V c main_arg1) (row0 t p)) (arr2 (V c main_arg0) (row0 t p)) (arr2 (V c main_arg0)) (arr2 (V c main_arg2))
          (arr2 (V c main_call0_v0) 0) (arr2 (V c main_arg4)) (arr2 (V c main_call0_v1) 0) q := by
  refine (hP _ _ _ _ _ _ _ p q).trans ?_
  refine congrFun (congr7 Y ?_ ?_ ?_ ?_ ?_ ?_ ?_) q
  · exact funext fun j => iblk0_0_apply V c t p j
  · exact funext fun l => iblk0_2_apply V c t p l
  · exact funext fun j => funext fun k => iblk0_1_apply V c t j k
  · exact funext fun l => funext fun k => iblk0_3_apply V c t l k
  · exact funext fun k => iblk0_4_apply V c t 0 k
  · exact funext fun l => funext fun q => iblk0_5_apply V c t l q
  · exact funext fun q => iblk0_6_apply V c t 0 q

/-! ### Output window 7 -/

/-- Where an element of output block `t` sits in the array: row `200 t + p`, the same column. -/
theorem emb0_7 (t : Fin cfg0.N) (p : Fin 200) (q : Fin 16) :
    ((cfg0.win 7).blk t).view.emb (ix2 p q) = (ix2 (row0 t p) q : S10000x16.Idx) := by
  obtain ⟨-, -, -, -, -, -, -, ⟨e0, e1⟩, -⟩ := index_facts0 t
  refine funext fun a => Fin.ext ?_
  match a with
  | ⟨0, _⟩ => show win0_7.index t (0 : Fin 2) * 200 + 1 * p.val = 200 * t.val + p.val; rw [e0]; omega
  | ⟨1, _⟩ => show win0_7.index t (1 : Fin 2) * 16 + 1 * q.val = q.val; rw [e1]; omega

/-- An index of the array is in point `t`'s block iff each coordinate is in the block's range on its axis. -/
theorem mem_blk0_7 (t : Fin cfg0.N) (i : S10000x16.Idx) :
    i ∈ ((cfg0.win 7).blk t).view.set ↔ ∀ a : Fin 2, win0_7.index t a * S200x16.size a ≤ (i a).val ∧ (i a).val < win0_7.index t a * S200x16.size a + S200x16.size a := by
  show i ∈ ((View.whole main_call0_v2_0).slice (win0_7.rect t)).set ↔ _
  rw [View.set_slice_whole, Rect.mem_set_unit]
  exact Iff.rfl

/-- Every row of the array is in the block of the point its row block names. -/
theorem cover0_7 (i : S10000x16.Idx) :
    ∃ t : Fin cfg0.N, (cfg0.win 7).flush t = true ∧ i ∈ ((cfg0.win 7).blk t).view.set := by
  have hi0 : (i 0).val < 10000 := (i 0).isLt
  have hi1 : (i 1).val < 16 := (i 1).isLt
  obtain ⟨t, ht⟩ : ∃ t : Fin cfg0.N, t.val = (i 0).val / 200 :=
    ⟨⟨(i 0).val / 200, by rw [show cfg0.N = 50 from N_0]; omega⟩, rfl⟩
  obtain ⟨-, -, -, -, -, -, -, ⟨e0, e1⟩, -⟩ := index_facts0 t
  refine ⟨t, flush0_7 t, ?_⟩
  rw [mem_blk0_7]
  intro a
  match a with
  | ⟨0, _⟩ => show win0_7.index t (0 : Fin 2) * 200 ≤ (i 0).val ∧ (i 0).val < win0_7.index t (0 : Fin 2) * 200 + 200; rw [e0, ht]; omega
  | ⟨1, _⟩ => show win0_7.index t (1 : Fin 2) * 16 ≤ (i 1).val ∧ (i 1).val < win0_7.index t (1 : Fin 2) * 16 + 16; rw [e1]; omega

/-- What point `t` writes back to the own-half array is block `t` of the own half of every row. -/
theorem flushed0_7_eq
    (hpay : ∀ (v0 : Vec Ideal S200x10000 .f32) (v1 : Vec Ideal S10000x128 .f32) (v11 : Vec Ideal S200x128 .f32)
      (v12 : Vec Ideal S256x128 .f32) (v18 : Vec Ideal S1x128 .f32) (v24 : Vec Ideal S256x16 .f32) (v27 : Vec Ideal S1x16 .f32)
      (p : Fin 200) (q : Fin 16), k0_pay2 (F := Ideal) v0 v1 v11 v12 v18 v24 v27 (ix2 p q)
        = yself (fun j => v0 (ix2 p j)) (fun l => v11 (ix2 p l)) (fun j k => v1 (ix2 j k)) (fun l k => v12 (ix2 l k))
            (fun k => v18 (ix2 0 k)) (fun l c => v24 (ix2 l c)) (fun c => v27 (ix2 0 c)) q)
    (c : Dev nD) (t : Fin cfg0.N) :
    (dat0 (F := Ideal) V c).flushed 7 t = ((cfg0.win 7).blk t).view.read (Elt Ideal)
      (unarr2 (fun i q => yself (arr2 (V c main_arg1) i) (arr2 (V c main_arg0) i) (arr2 (V c main_arg0)) (arr2 (V c main_arg2))
        (arr2 (V c main_call0_v0) 0) (arr2 (V c main_arg4)) (arr2 (V c main_call0_v1) 0) q)) := by
  show (cfg0.win 7).cut (grid0.coords t) ((dat0 (F := Ideal) V c).after 7 t) = _
  rw [after0_7]
  unfold out0_7
  rw [View.canon_unit_zero zeros2]
  simp only [View.ld_unit_zero (S := S200x10000) zeros2, View.ld_unit_zero (S := S10000x128) zeros2,
    View.ld_unit_zero (S := S200x128) zeros2, View.ld_unit_zero (S := S256x128) zeros2, View.ld_unit_zero (S := S1x128) zeros2,
    View.ld_unit_zero (S := S256x16) zeros2, View.ld_unit_zero (S := S1x16) zeros2]
  funext y
  obtain ⟨p, q, rfl⟩ : ∃ (p : Fin 200) (q : Fin 16), y = ix2 p q := ⟨y 0, y 1, eq_ix2 y⟩
  show k0_pay2 (F := Ideal) (iblk0 V c 0 t) (iblk0 V c 1 t) (iblk0 V c 2 t) (iblk0 V c 3 t) (iblk0 V c 4 t) (iblk0 V c 5 t) (iblk0 V c 6 t) (ix2 p q)
    = unarr2 (fun i q => yself (arr2 (V c main_arg1) i) (arr2 (V c main_arg0) i) (arr2 (V c main_arg0)) (arr2 (V c main_arg2))
        (arr2 (V c main_call0_v0) 0) (arr2 (V c main_arg4)) (arr2 (V c main_call0_v1) 0) q) (((cfg0.win 7).blk t).view.emb (ix2 p q))
  rw [emb0_7, unarr2_ix2]
  exact pay_rows0 V (fun v0 v1 v11 v12 v18 v24 v27 => k0_pay2 (F := Ideal) v0 v1 v11 v12 v18 v24 v27) yself hpay c t p q

/-- The own-half array after the fifty write-backs. -/
theorem final0_7
    (hpay : ∀ (v0 : Vec Ideal S200x10000 .f32) (v1 : Vec Ideal S10000x128 .f32) (v11 : Vec Ideal S200x128 .f32)
      (v12 : Vec Ideal S256x128 .f32) (v18 : Vec Ideal S1x128 .f32) (v24 : Vec Ideal S256x16 .f32) (v27 : Vec Ideal S1x16 .f32)
      (p : Fin 200) (q : Fin 16), k0_pay2 (F := Ideal) v0 v1 v11 v12 v18 v24 v27 (ix2 p q)
        = yself (fun j => v0 (ix2 p j)) (fun l => v11 (ix2 p l)) (fun j k => v1 (ix2 j k)) (fun l k => v12 (ix2 l k))
            (fun k => v18 (ix2 0 k)) (fun l c => v24 (ix2 l c)) (fun c => v27 (ix2 0 c)) q)
    (c : Dev nD) :
    (dat0 (F := Ideal) V c).arrAt 7 cfg0.N
      = unarr2 (fun i q => yself (arr2 (V c main_arg1) i) (arr2 (V c main_arg0) i) (arr2 (V c main_arg0)) (arr2 (V c main_arg2))
          (arr2 (V c main_call0_v0) 0) (arr2 (V c main_arg4)) (arr2 (V c main_call0_v1) 0) q) :=
  (dat0 (F := Ideal) V c).arrAt_eq_of_cover 7 _ (fun t _ => flushed0_7_eq V hpay c t) cover0_7

/-! ### Output window 8 -/

/-- Where an element of output block `t` sits in the array: row `200 t + p`, the same column. -/
theorem emb0_8 (t : Fin cfg0.N) (p : Fin 200) (q : Fin 16) :
    ((cfg0.win 8).blk t).view.emb (ix2 p q) = (ix2 (row0 t p) q : S10000x16.Idx) := by
  obtain ⟨-, -, -, -, -, -, -, -, ⟨e0, e1⟩⟩ := index_facts0 t
  refine funext fun a => Fin.ext ?_
  match a with
  | ⟨0, _⟩ => show win0_8.index t (0 : Fin 2) * 200 + 1 * p.val = 200 * t.val + p.val; rw [e0]; omega
  | ⟨1, _⟩ => show win0_8.index t (1 : Fin 2) * 16 + 1 * q.val = q.val; rw [e1]; omega

/-- An index of the array is in point `t`'s block iff each coordinate is in the block's range on its axis. -/
theorem mem_blk0_8 (t : Fin cfg0.N) (i : S10000x16.Idx) :
    i ∈ ((cfg0.win 8).blk t).view.set ↔ ∀ a : Fin 2, win0_8.index t a * S200x16.size a ≤ (i a).val ∧ (i a).val < win0_8.index t a * S200x16.size a + S200x16.size a := by
  show i ∈ ((View.whole main_call0_v2_1).slice (win0_8.rect t)).set ↔ _
  rw [View.set_slice_whole, Rect.mem_set_unit]
  exact Iff.rfl

/-- Every row of the array is in the block of the point its row block names. -/
theorem cover0_8 (i : S10000x16.Idx) :
    ∃ t : Fin cfg0.N, (cfg0.win 8).flush t = true ∧ i ∈ ((cfg0.win 8).blk t).view.set := by
  have hi0 : (i 0).val < 10000 := (i 0).isLt
  have hi1 : (i 1).val < 16 := (i 1).isLt
  obtain ⟨t, ht⟩ : ∃ t : Fin cfg0.N, t.val = (i 0).val / 200 :=
    ⟨⟨(i 0).val / 200, by rw [show cfg0.N = 50 from N_0]; omega⟩, rfl⟩
  obtain ⟨-, -, -, -, -, -, -, -, ⟨e0, e1⟩⟩ := index_facts0 t
  refine ⟨t, flush0_8 t, ?_⟩
  rw [mem_blk0_8]
  intro a
  match a with
  | ⟨0, _⟩ => show win0_8.index t (0 : Fin 2) * 200 ≤ (i 0).val ∧ (i 0).val < win0_8.index t (0 : Fin 2) * 200 + 200; rw [e0, ht]; omega
  | ⟨1, _⟩ => show win0_8.index t (1 : Fin 2) * 16 ≤ (i 1).val ∧ (i 1).val < win0_8.index t (1 : Fin 2) * 16 + 16; rw [e1]; omega

/-- What point `t` writes back to the neighbour-half array is block `t` of the neighbour half of every row. -/
theorem flushed0_8_eq
    (hpay : ∀ (v0 : Vec Ideal S200x10000 .f32) (v1 : Vec Ideal S10000x128 .f32) (v11 : Vec Ideal S200x128 .f32)
      (v12 : Vec Ideal S256x128 .f32) (v18 : Vec Ideal S1x128 .f32) (v24 : Vec Ideal S256x16 .f32)
      (p : Fin 200) (q : Fin 16), k0_pay3 (F := Ideal) v0 v1 v11 v12 v18 v24 (ix2 p q)
        = yneigh (fun j => v0 (ix2 p j)) (fun l => v11 (ix2 p l)) (fun j k => v1 (ix2 j k)) (fun l k => v12 (ix2 l k))
            (fun k => v18 (ix2 0 k)) (fun l c => v24 (ix2 l c)) q)
    (c : Dev nD) (t : Fin cfg0.N) :
    (dat0 (F := Ideal) V c).flushed 8 t = ((cfg0.win 8).blk t).view.read (Elt Ideal)
      (unarr2 (fun i q => yneigh (arr2 (V c main_arg1) i) (arr2 (V c main_arg0) i) (arr2 (V c main_arg0)) (arr2 (V c main_arg2))
        (arr2 (V c main_call0_v0) 0) (arr2 (V c main_arg4)) q)) := by
  show (cfg0.win 8).cut (grid0.coords t) ((dat0 (F := Ideal) V c).after 8 t) = _
  rw [after0_8]
  unfold out0_8
  rw [View.canon_unit_zero zeros2]
  simp only [View.ld_unit_zero (S := S200x10000) zeros2, View.ld_unit_zero (S := S10000x128) zeros2,
    View.ld_unit_zero (S := S200x128) zeros2, View.ld_unit_zero (S := S256x128) zeros2, View.ld_unit_zero (S := S1x128) zeros2,
    View.ld_unit_zero (S := S256x16) zeros2]
  funext y
  obtain ⟨p, q, rfl⟩ : ∃ (p : Fin 200) (q : Fin 16), y = ix2 p q := ⟨y 0, y 1, eq_ix2 y⟩
  show k0_pay3 (F := Ideal) (iblk0 V c 0 t) (iblk0 V c 1 t) (iblk0 V c 2 t) (iblk0 V c 3 t) (iblk0 V c 4 t) (iblk0 V c 5 t) (ix2 p q)
    = unarr2 (fun i q => yneigh (arr2 (V c main_arg1) i) (arr2 (V c main_arg0) i) (arr2 (V c main_arg0)) (arr2 (V c main_arg2))
        (arr2 (V c main_call0_v0) 0) (arr2 (V c main_arg4)) q) (((cfg0.win 8).blk t).view.emb (ix2 p q))
  rw [emb0_8, unarr2_ix2]
  exact pay_rows0 V (fun v0 v1 v11 v12 v18 v24 _ => k0_pay3 (F := Ideal) v0 v1 v11 v12 v18 v24)
    (fun ar xr X w1 b1 w2 _ => yneigh ar xr X w1 b1 w2) (fun v0 v1 v11 v12 v18 v24 _ p q => hpay v0 v1 v11 v12 v18 v24 p q) c t p q

/-- The neighbour-half array after the fifty write-backs. -/
theorem final0_8
    (hpay : ∀ (v0 : Vec Ideal S200x10000 .f32) (v1 : Vec Ideal S10000x128 .f32) (v11 : Vec Ideal S200x128 .f32)
      (v12 : Vec Ideal S256x128 .f32) (v18 : Vec Ideal S1x128 .f32) (v24 : Vec Ideal S256x16 .f32)
      (p : Fin 200) (q : Fin 16), k0_pay3 (F := Ideal) v0 v1 v11 v12 v18 v24 (ix2 p q)
        = yneigh (fun j => v0 (ix2 p j)) (fun l => v11 (ix2 p l)) (fun j k => v1 (ix2 j k)) (fun l k => v12 (ix2 l k))
            (fun k => v18 (ix2 0 k)) (fun l c => v24 (ix2 l c)) q)
    (c : Dev nD) :
    (dat0 (F := Ideal) V c).arrAt 8 cfg0.N
      = unarr2 (fun i q => yneigh (arr2 (V c main_arg1) i) (arr2 (V c main_arg0) i) (arr2 (V c main_arg0)) (arr2 (V c main_arg2))
          (arr2 (V c main_call0_v0) 0) (arr2 (V c main_arg4)) q) :=
  (dat0 (F := Ideal) V c).arrAt_eq_of_cover 8 _ (fun t _ => flushed0_8_eq V hpay c t) cover0_8

end Cert.KernelIdeal.Hand

end
-- ==== Proof.KI.Value1.lean ====
/-
  The second pass's result array as one function of the arrays the pass is entered from.

  The pass runs over 50 row blocks of 200 rows. At block `t` it reads rows `200 t … 200 t + 199` of the adjacency matrix and
  of the own-half table, and the whole neighbour-half table, and writes the same rows of the result. Row `p` of block `t`
  is row `200 t + p` of the whole arrays, every row `r` lies in block `r / 200`, and the value written at a row depends only
  on that row of the adjacency matrix and of the own-half table and on the whole neighbour-half table. So after the last
  write-back the result array is, row by row, the log-softmax of the kernel's logits of that row.
-/
import proofs.«158636_g53910429499711_cont_9to1_m_389_3_alg».proof.Proof.KI.Body1
import proofs.«158636_g53910429499711_cont_9to1_m_389_3_alg».proof.Proof.Spec
import Idealize.ShloMosaic.Lib.Pipeline.Value
import Idealize.ShloMosaic.Lib.ValueIdx

noncomputable section

namespace Cert.KernelIdeal.Hand

open Cert.KernelIdeal Cert.KernelIdeal.Gen Cert.Sage
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a whole-buffer rectangle. -/
theorem hz1 : (![0, 0] : Fin 2 → Nat) = fun _ => 0 := funext fun a => by fin_cases a <;> rfl

/-- The index maps over the grid: the adjacency block, the own-half rows and the result rows sit at block (t, 0); the
    neighbour-half table at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The pass has 50 points. -/
theorem N1 : cfg1.N = 50 := by decide

/-- Row `p` of row block `t` as a row of the whole matrix. -/
def row1 (t : Fin cfg1.N) (p : Fin 200) : Fin 10000 :=
  ⟨200 * t.val + p.val, by have ht : t.val < 50 := lt_of_lt_of_eq t.isLt N1; have hp := p.isLt; omega⟩

/-- The adjacency block at point `t`, row `p`, is row `200 t + p` of the adjacency matrix. -/
theorem iblk1_0_apply (c : Dev nD) (t : Fin cfg1.N) (p : Fin 200) (j : Fin 10000) :
    (iblk1 V c 0 t : Vec Ideal S200x10000 .f32) (ix2 p j) = (V c main_arg1 : S10000x10000.Idx → EReal) (ix2 (row1 t p) j) := by
  obtain ⟨e0, e1, -⟩ := idx_facts1 t
  show V c main_arg1 (((cfg1.win 0).blk t).view.emb (ix2 p j)) = V c main_arg1 (ix2 (row1 t p) j)
  congr 1
  funext a; apply Fin.ext
  match a with
  | ⟨0, _⟩ => show win1_0.index t (0 : Fin 2) * 200 + 1 * p.val = 200 * t.val + p.val; omega
  | ⟨1, _⟩ => show win1_0.index t (1 : Fin 2) * 10000 + 1 * j.val = j.val; omega

/-- The neighbour-half table's block is the whole table at every point. -/
theorem iblk1_1_apply (c : Dev nD) (t : Fin cfg1.N) (j : Fin 10000) (k : Fin 16) :
    (iblk1 V c 1 t : Vec Ideal S10000x16 .f32) (ix2 j k) = (V c main_call0_v2_1 : S10000x16.Idx → EReal) (ix2 j k) := by
  obtain ⟨-, -, e0, e1, -⟩ := idx_facts1 t
  show V c main_call0_v2_1 (((cfg1.win 1).blk t).view.emb (ix2 j k)) = V c main_call0_v2_1 (ix2 j k)
  congr 1
  funext a; apply Fin.ext
  match a with
  | ⟨0, _⟩ => show win1_1.index t (0 : Fin 2) * 10000 + 1 * j.val = j.val; omega
  | ⟨1, _⟩ => show win1_1.index t (1 : Fin 2) * 16 + 1 * k.val = k.val; omega

/-- The own-half block at point `t`, row `p`, is row `200 t + p` of the own-half table. -/
theorem iblk1_2_apply (c : Dev nD) (t : Fin cfg1.N) (p : Fin 200) (k : Fin 16) :
    (iblk1 V c 2 t : Vec Ideal S200x16 .f32) (ix2 p k) = (V c main_call0_v2_0 : S10000x16.Idx → EReal) (ix2 (row1 t p) k) := by
  obtain ⟨-, -, -, -, e0, e1, -⟩ := idx_facts1 t
  show V c main_call0_v2_0 (((cfg1.win 2).blk t).view.emb (ix2 p k)) = V c main_call0_v2_0 (ix2 (row1 t p) k)
  congr 1
  funext a; apply Fin.ext
  match a with
  | ⟨0, _⟩ => show win1_2.index t (0 : Fin 2) * 200 + 1 * p.val = 200 * t.val + p.val; omega
  | ⟨1, _⟩ => show win1_2.index t (1 : Fin 2) * 16 + 1 * k.val = k.val; omega

/-- Entry (p, q) of the result's block at point `t` is entry (200 t + p, q) of the result array. -/
theorem emb1_3 (t : Fin cfg1.N) (p : Fin 200) (q : Fin 16) :
    (((cfg1.win 3).blk t).view.emb (ix2 p q) : S10000x16.Idx) = ix2 (row1 t p) q := by
  obtain ⟨-, -, -, -, -, -, e0, e1⟩ := idx_facts1 t
  funext a; apply Fin.ext
  match a with
  | ⟨0, _⟩ => show win1_3.index t (0 : Fin 2) * 200 + 1 * p.val = 200 * t.val + p.val; omega
  | ⟨1, _⟩ => show win1_3.index t (1 : Fin 2) * 16 + 1 * q.val = q.val; omega

/-- The whole result array: row by row, the log-softmax of the kernel's logits of the row. -/
abbrev G1 (c : Dev nD) : S10000x16.Idx → EReal :=
  unarr2 (fun i q => lsm (logitsK (arr2 (V c main_arg1) i) (arr2 (V c main_call0_v2_0) i) (arr2 (V c main_call0_v2_1))) q)

/-- What point `t` writes back is block `t` of that array. -/
theorem flushed1_3_eq (hpay : ∀ (v0 : Vec Ideal S200x10000 .f32) (v5 : Vec Ideal S10000x16 .f32) (v8 : Vec Ideal S200x16 .f32) (p : Fin 200) (q : Fin 16), k1_pay1 (F := Ideal) v0 v5 v8 (ix2 p q) = lsm (logitsK (fun j => v0 (ix2 p j)) (fun c => v8 (ix2 p c)) (fun j c => v5 (ix2 j c))) q)
    (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  unfold out1_3
  rw [View.canon_unit_zero hz1]
  simp only [View.ld_unit_zero (S := S200x10000) hz1, View.ld_unit_zero (S := S10000x16) hz1, View.ld_unit_zero (S := S200x16) hz1]
  funext y
  obtain ⟨p, q, rfl⟩ : ∃ (p : Fin 200) (q : Fin 16), y = ix2 p q := ⟨y 0, y 1, eq_ix2 y⟩
  show k1_pay1 (F := Ideal) (iblk1 V c 0 t) (iblk1 V c 1 t) (iblk1 V c 2 t) (ix2 p q) = G1 V c (((cfg1.win 3).blk t).view.emb (ix2 p q))
  refine (hpay _ _ _ p q).trans ?_
  rw [emb1_3 t p q]
  show _ = lsm (logitsK (arr2 (V c main_arg1) (row1 t p)) (arr2 (V c main_call0_v2_0) (row1 t p)) (arr2 (V c main_call0_v2_1))) q
  have h0 : (fun j => (iblk1 V c 0 t : Vec Ideal S200x10000 .f32) (ix2 p j)) = arr2 (V c main_arg1) (row1 t p) :=
    funext fun j => iblk1_0_apply V c t p j
  have h2 : (fun k => (iblk1 V c 2 t : Vec Ideal S200x16 .f32) (ix2 p k)) = arr2 (V c main_call0_v2_0) (row1 t p) :=
    funext fun k => iblk1_2_apply V c t p k
  have h1 : (fun j k => (iblk1 V c 1 t : Vec Ideal S10000x16 .f32) (ix2 j k)) = arr2 (V c main_call0_v2_1) :=
    funext fun j => funext fun k => iblk1_1_apply V c t j k
  exact congrArg (fun z => lsm z q) (by rw [h0, h2, h1])

/-- An index of the array is in point `t`'s block iff each coordinate is in the block's range on its axis. -/
theorem mem_blk1_3 (t : Fin cfg1.N) (i : S10000x16.Idx) :
    i ∈ ((cfg1.win 3).blk t).view.set ↔ ∀ a : Fin 2, win1_3.index t a * S200x16.size a ≤ (i a).val ∧ (i a).val < win1_3.index t a * S200x16.size a + S200x16.size a := by
  show i ∈ ((View.whole main_v0).slice (win1_3.rect t)).set ↔ _
  rw [View.set_slice_whole, Rect.mem_set_unit]
  exact Iff.rfl

/-- Every row lies in the block of the point its row block names. -/
theorem cover1_3 (i : S10000x16.Idx) : ∃ t : Fin cfg1.N, (cfg1.win 3).flush t = true ∧ i ∈ ((cfg1.win 3).blk t).view.set := by
  have hi0 : (i 0).val < 10000 := (i 0).isLt
  have hi1 : (i 1).val < 16 := (i 1).isLt
  let t : Fin cfg1.N := ⟨(i 0).val / 200, by rw [N1]; omega⟩
  have htv : t.val = (i 0).val / 200 := rfl
  obtain ⟨-, -, -, -, -, -, e0, e1⟩ := idx_facts1 t
  refine ⟨t, flush1_3 t, ?_⟩
  rw [mem_blk1_3]
  intro a
  match a with
  | ⟨0, _⟩ => show win1_3.index t (0 : Fin 2) * 200 ≤ (i 0).val ∧ (i 0).val < win1_3.index t (0 : Fin 2) * 200 + 200; omega
  | ⟨1, _⟩ => show win1_3.index t (1 : Fin 2) * 16 ≤ (i 1).val ∧ (i 1).val < win1_3.index t (1 : Fin 2) * 16 + 16; omega

/-- The result array after the last write-back: the blocks cover it, and each is the block of the one function. -/
theorem final1_3 (hpay : ∀ (v0 : Vec Ideal S200x10000 .f32) (v5 : Vec Ideal S10000x16 .f32) (v8 : Vec Ideal S200x16 .f32) (p : Fin 200) (q : Fin 16), k1_pay1 (F := Ideal) v0 v5 v8 (ix2 p q) = lsm (logitsK (fun j => v0 (ix2 p j)) (fun c => v8 (ix2 p c)) (fun j c => v5 (ix2 j c))) q)
    (c : Dev nD) :
    (dat1 (F := Ideal) V c).arrAt 3 cfg1.N = unarr2 (fun i q => lsm (logitsK (arr2 (V c main_arg1) i) (arr2 (V c main_call0_v2_0) i) (arr2 (V c main_call0_v2_1))) q) :=
  (dat1 (F := Ideal) V c).arrAt_eq_of_cover 3 (G1 V c) (fun t _ => flushed1_3_eq V hpay c t) cover1_3

end Cert.KernelIdeal.Hand

end
-- ==== Proof.Pay0.lean ====
/-
  The first pass's arithmetic, read one entry at a time.

  For a block of 200 rows of the adjacency matrix, the first pass computes the hidden block
  max (x·W1[top] + mean·W1[bottom] + b1, 0), where mean is the neighbour mean (A·x) / max (row sum of A, ε), and from it
  the two 16-wide halves of the second layer: hidden·W2[top] + b2 and hidden·W2[bottom]. Read at row p and column k
  (or class q), each is the corresponding row function of the specification at node p: the hidden row, the second
  layer's own half, and the half the second pass aggregates.

  The steps: a lane sum is the sum over the row; a column view of a vector and its broadcast over the lanes read the
  vector's entry; a row broadcast reads the row; the top and bottom halves of a 256-row matrix are its rows lo l and
  hi l; a product into the zero block is the sum over the contracted coordinate of the entries' products; a change of
  format is the identity; the word 0 is the number 0.
-/
import proofs.«158636_g53910429499711_cont_9to1_m_389_3_alg».proof.Proof.Gen.KernelIdeal.Skeleton
import proofs.«158636_g53910429499711_cont_9to1_m_389_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.Sage Idealize.ShloMosaic Idealize.ShloMosaic.ValueIdx

/-! ## The layout operations and the lane sum at an entry -/

/-- The lane sum of a [200, 10000] block at row p is the sum of the row. -/
theorem rowsum_apply (v : FVec Ideal S200x10000 .f32) (h : S200x10000.Reduces [1] S200) (hφ : FKind.Formats .f32)
    (hacc : (0x00000000#32 : BitVec 32) = 0x00000000#32) (p : Fin 200) :
    multiReduction (F := Ideal) .add [1] S200 v 0x00000000#32 h hφ hacc (ix1 p) = ∑ j : Fin 10000, v (ix2 p j) := by
  refine (Ideal.multiReduction_add_single v 0x00000000#32 h hφ hacc (ix1 p)).trans ?_
  refine Finset.sum_congr rfl fun j _ => ?_
  exact congrArg v (funext fun a => Fin.ext (by match a with | ⟨0, _⟩ => rfl | ⟨1, _⟩ => rfl))

/-- A [200] vector viewed as a [200, 1] column reads, at (p, 0), the vector at p. -/
theorem col_cast_apply {α : Type} (x : S200.Idx → α) (h : S200.ShapeCasts S200x1) (p : Fin 200) (u : Fin 1) :
    shapeCast S200x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A [200, 1] column broadcast over 128 lanes reads, at (p, k), the column at (p, 0). -/
theorem col_bcast_apply {α : Type} (x : S200x1.Idx → α) (h : S200x1.Broadcasts S200x128) (p : Fin 200) (k : Fin 128) :
    broadcastTo S200x128 x h (ix2 p k) = x (ix2 p (0 : Fin 1)) := by
  refine broadcastTo_apply x h (ix2 p k) (ix2 p (0 : Fin 1)) fun ax => ?_
  match ax with
  | ⟨0, _⟩ =>
    show p.val = if (200 : Nat) = 1 then 0 else p.val
    rw [if_neg (by decide)]
  | ⟨1, _⟩ =>
    show 0 = if (1 : Nat) = 1 then 0 else k.val
    rw [if_pos rfl]

/-- The top 128 rows of a 256-row matrix: row l of the slice is row lo l. -/
theorem slice_lo_apply {α : Type} {n : Nat} (X : (⟨2, ![256, n]⟩ : Shape).Idx → α)
    (h : (⟨2, ![256, n]⟩ : Shape).Slices ![0, 0] ⟨2, ![128, n]⟩) (l : Fin 128) (e : Fin n) :
    extractStridedSlice ⟨2, ![128, n]⟩ ![0, 0] X h (ix2 l e) = X (ix2 (lo l) e) :=
  slice2_axis0_apply 0 X h l e (lo l) (Nat.zero_add _).symm

/-- The bottom 128 rows: row l of the slice is row hi l. -/
theorem slice_hi_apply {α : Type} {n : Nat} (X : (⟨2, ![256, n]⟩ : Shape).Idx → α)
    (h : (⟨2, ![256, n]⟩ : Shape).Slices ![128, 0] ⟨2, ![128, n]⟩) (l : Fin 128) (e : Fin n) :
    extractStridedSlice ⟨2, ![128, n]⟩ ![128, 0] X h (ix2 l e) = X (ix2 (hi l) e) :=
  slice2_axis0_apply 128 X h l e (hi l) rfl

/-! ## The adjacency block times the feature table: [200, 10000] by [10000, 128] -/

theorem lhs_agg_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhs_agg_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem rhs_agg_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem rhs_agg_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- A [200, 10000] by [10000, 128] product into the zero block reads, at (p, q), the sum over the 10000 nodes. -/
theorem matmul_agg_apply (a : FVec Ideal S200x10000 .bf16) (b : FVec Ideal S10000x128 .bf16) (p : Fin 200) (q : Fin 128) :
    matmul dot_S200x10000_S10000x128_S200x128_1_0_0_1_n_n none a b (constant (F := Ideal) S200x128 .f32 0x00000000#32) (ix2 p q)
      = ∑ k : Fin 10000, a (ix2 p k) * b (ix2 k q) := by
  simp only [matmul]
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p q) ((contrEquiv1 dot_S200x10000_S10000x128_S200x128_1_0_0_1_n_n 10000 rfl rfl).symm k) = ix2 p k := funext fun ax => Fin.ext (by
    match ax with
    | ⟨0, _⟩ => exact lhs_agg_0 _ _
    | ⟨1, _⟩ => exact (lhs_agg_1 _ _).trans hk)
  have er : dot_S200x10000_S10000x128_S200x128_1_0_0_1_n_n.rhsIdx (ix2 p q) ((contrEquiv1 dot_S200x10000_S10000x128_S200x128_1_0_0_1_n_n 10000 rfl rfl).symm k) = ix2 k q := funext fun ax => Fin.ext (by
    match ax with
    | ⟨0, _⟩ => exact (rhs_agg_0 _ _).trans hk
    | ⟨1, _⟩ => exact rhs_agg_1 _ _)
  rw [el, er]

/-! ## A 200-row block times a half of the first weight matrix: [200, 128] by [128, 128] -/

theorem lhs_w1_0 (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem lhs_w1_1 (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
theorem rhs_w1_0 (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
theorem rhs_w1_1 (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- A [200, 128] by [128, 128] product into the zero block reads, at (p, q), the sum over the 128 features. -/
theorem matmul_w1_apply (a : FVec Ideal S200x128 .f32) (b : FVec Ideal S128x128 .f32) (p : Fin 200) (q : Fin 128) :
    matmul dot_S200x128_S128x128_S200x128_1_0_0_1_n_n none a b (constant (F := Ideal) S200x128 .f32 0x00000000#32) (ix2 p q)
      = ∑ k : Fin 128, a (ix2 p k) * b (ix2 k q) := by
  simp only [matmul]
  rw [Ideal.matmul_constant_zero_apply, ← Equiv.sum_comp (contrEquiv1 dot_S200x128_S128x128_S200x128_1_0_0_1_n_n 128 rfl rfl).symm]
  refine Finset.sum_congr rfl fun k _ => ?_
  have hk := contrEquiv1_symm_val dot_S200x128_S128x128_S200x128_1_0_0_1_n_n 128 rfl rfl k
  have el : dot_S200x128_S128x128_S200x128_1_0_0_1_n_n.lhsIdx (ix2 p q) ((contrEquiv1 dot_S200x128_S128x128_S200x128_1_0_0_1_n_n 128 rfl rfl).symm k) = ix2 p k := funext fun ax => Fin.ext (by
    match ax with
    | ⟨0, _⟩ => exact lhs_w1_0 _ _
    | ⟨1, _⟩ => exact (lhs_w1_1 _ _).trans hk)
  have er : dot_S200x128_S128x128_S200x128_1_0_0_1_n_n.rhsIdx (ix2 p q) ((contrEquiv1 dot_S200x128_S128x128_S200x128_1_0_0_1_n_n 128 rfl rfl).symm k) = ix2 k q := funext fun ax => Fin.ext (by
    match ax with
    | ⟨0, _⟩ => exact (rhs_w1_0 _ _).trans hk
    | ⟨1, _⟩ => exact rhs_w1_1 _ _)
  rw [el, er]

/-! ## The hidden block times a half of the second weight matrix: [200, 128] by [128, 16] -/

theorem lhs_w2_0 (i : S200x16.Idx) (q : dot_S200x128_S128x16_S200x16_1_0_0_1_n_n.contr.Idx) :
    (dot_S200x128_S128x16_S200x16_1_0_0_1_n_n.lhsIdx i q 0).val = (i 0).val := by
  unfold DotDims.lhsIdx
  rw [dif_neg (show ¬(0 : Fin S200x128.rank) ∈ dot_S200x128_S128x16_S200x16_1_0_0_1_n_n.lhsBatch by decide), dif_pos (show (0 : Fin S200x128.rank) ∈ dot_S200x128_S128x16_S200x16_1_0_0_1_n_n.lhsNonContracting by decide)]
  rfl
theorem lhs_w2_1 (i : S200x16.Idx) (q : dot_S200x128_S128x16_S200x16_1_0_0_1_n_n.contr.Idx) :
    (dot_S200x128_S128x16_S200x16_1_0_0_1_n_n.lhsIdx i q 1).val = (q ⟨0, by decide⟩).val :=
  dot_S200x128_S128x16_S200x16_1_0_0_1_n_n.lhsIdx_val_of_single rfl i q
theorem rhs_w2_0 (i : S200x16.Idx) (q : dot_S200x128_S128x16_S200x16_1_0_0_1_n_n.contr.Idx) :
    (dot_S200x128_S128x16_S200x16_1_0_0_1_n_n.rhsIdx i q 0).val = (q ⟨0, by decide⟩).val :=
  dot_S200x128_S128x16_S200x16_1_0_0_1_n_n.rhsIdx_val_of_single rfl i q
theorem rhs_w2_1 (i : S200x16.Idx) (q : dot_S200x128_S128x16_S200x16_1_0_0_1_n_n.contr.Idx) :
    (dot_S200x128_S128x16_S200x16_1_0_0_1_n_n.rhsIdx i q 1).val = (i 1).val := by
  unfold DotDims.rhsIdx
  rw [dif_neg (show ¬(1 : Fin S128x16.rank) ∈ dot_S200x128_S128x16_S200x16_1_0_0_1_n_n.rhsBatch by decide), dif_pos (show (1 : Fin S128x16.rank) ∈ dot_S200x128_S128x16_S200x16_1_0_0_1_n_n.rhsNonContracting by decide)]
  rfl

/-- A [200, 128] by [128, 16] product into the zero block reads, at (p, q), the sum over the 128 hidden units. -/
theorem matmul_w2_apply (a : FVec Ideal S200x128 .f32) (b : FVec Ideal S128x16 .f32) (p : Fin 200) (q : Fin 16) :
    matmul dot_S200x128_S128x16_S200x16_1_0_0_1_n_n none a b (constant (F := Ideal) S200x16 .f32 0x00000000#32) (ix2 p q)
      = ∑ k : Fin 128, a (ix2 p k) * b (ix2 k q) := by
  simp only [matmul]
  rw [Ideal.matmul_constant_zero_apply, ← Equiv.sum_comp (contrEquiv1 dot_S200x128_S128x16_S200x16_1_0_0_1_n_n 128 rfl rfl).symm]
  refine Finset.sum_congr rfl fun k _ => ?_
  have hk := contrEquiv1_symm_val dot_S200x128_S128x16_S200x16_1_0_0_1_n_n 128 rfl rfl k
  have el : dot_S200x128_S128x16_S200x16_1_0_0_1_n_n.lhsIdx (ix2 p q) ((contrEquiv1 dot_S200x128_S128x16_S200x16_1_0_0_1_n_n 128 rfl rfl).symm k) = ix2 p k := funext fun ax => Fin.ext (by
    match ax with
    | ⟨0, _⟩ => exact lhs_w2_0 _ _
    | ⟨1, _⟩ => exact (lhs_w2_1 _ _).trans hk)
  have er : dot_S200x128_S128x16_S200x16_1_0_0_1_n_n.rhsIdx (ix2 p q) ((contrEquiv1 dot_S200x128_S128x16_S200x16_1_0_0_1_n_n 128 rfl rfl).symm k) = ix2 k q := funext fun ax => Fin.ext (by
    match ax with
    | ⟨0, _⟩ => exact (rhs_w2_0 _ _).trans hk
    | ⟨1, _⟩ => exact rhs_w2_1 _ _)
  rw [el, er]

/-! ## The three blocks of the first pass, entry by entry -/

/-- The first pass's hidden block at (p, k) is the hidden row of node p at column k. -/
theorem pay1_apply (v0 : Vec Ideal S200x10000 .f32) (v1 : Vec Ideal S10000x128 .f32) (v11 : Vec Ideal S200x128 .f32)
    (v12 : Vec Ideal S256x128 .f32) (v18 : Vec Ideal S1x128 .f32) (p : Fin 200) (k : Fin 128) :
    k0_pay1 (F := Ideal) v0 v1 v11 v12 v18 (ix2 p k)
      = hid (fun j => v0 (ix2 p j)) (fun l => v11 (ix2 p l)) (fun j k => v1 (ix2 j k)) (fun l k => v12 (ix2 l k))
          (fun k => v18 (ix2 0 k)) k := by
  unfold k0_pay1
  simp only [maximumf_apply, addf_apply, divf_apply, broadcast_apply, matmul_w1_apply, matmul_agg_apply, truncf_apply,
    slice_lo_apply, slice_hi_apply, col_bcast_apply, col_cast_apply, shapeCast_self, broadcastTo_1b_ab_apply]
  rw [rowsum_apply v0 _ _ _ p]
  unfold hid agg deg eps
  show max _ (Ideal.ofBits .f32 0x00000000#32) = _
  rw [Ideal.ofBits_zero_f32]
  rfl

/-- The first pass's own-half block at (p, q): the second layer's own half of node p, bias included, at class q. -/
theorem pay2_apply (v0 : Vec Ideal S200x10000 .f32) (v1 : Vec Ideal S10000x128 .f32) (v11 : Vec Ideal S200x128 .f32)
    (v12 : Vec Ideal S256x128 .f32) (v18 : Vec Ideal S1x128 .f32) (v24 : Vec Ideal S256x16 .f32) (v27 : Vec Ideal S1x16 .f32)
    (p : Fin 200) (q : Fin 16) :
    k0_pay2 (F := Ideal) v0 v1 v11 v12 v18 v24 v27 (ix2 p q)
      = yself (fun j => v0 (ix2 p j)) (fun l => v11 (ix2 p l)) (fun j k => v1 (ix2 j k)) (fun l k => v12 (ix2 l k))
          (fun k => v18 (ix2 0 k)) (fun l c => v24 (ix2 l c)) (fun c => v27 (ix2 0 c)) q := by
  unfold k0_pay2
  simp only [addf_apply, matmul_w2_apply, slice_lo_apply, shapeCast_self, broadcastTo_1b_ab_apply, pay1_apply]
  rfl

/-- The first pass's neighbour-half block at (p, q): the hidden row of node p times the bottom half of the second
    weight matrix, at class q. -/
theorem pay3_apply (v0 : Vec Ideal S200x10000 .f32) (v1 : Vec Ideal S10000x128 .f32) (v11 : Vec Ideal S200x128 .f32)
    (v12 : Vec Ideal S256x128 .f32) (v18 : Vec Ideal S1x128 .f32) (v24 : Vec Ideal S256x16 .f32)
    (p : Fin 200) (q : Fin 16) :
    k0_pay3 (F := Ideal) v0 v1 v11 v12 v18 v24 (ix2 p q)
      = yneigh (fun j => v0 (ix2 p j)) (fun l => v11 (ix2 p l)) (fun j k => v1 (ix2 j k)) (fun l k => v12 (ix2 l k))
          (fun k => v18 (ix2 0 k)) (fun l c => v24 (ix2 l c)) q := by
  unfold k0_pay3
  simp only [matmul_w2_apply, slice_hi_apply, pay1_apply]
  rfl

end Cert.KernelIdeal.Pay

end
-- ==== Proof.Pay1.lean ====
/-
  The second pass's arithmetic, read one entry at a time.

  The payload of the second pass takes a block of 200 rows of the adjacency matrix, the 16-wide table to aggregate
  and the block's own 16-wide half. Entry (p, q) of what it stores is the row-wise log-softmax, at column q, of the
  logits of row p: the row's own half plus the neighbour mean of the table (the row times the table, divided by the
  row's clamped degree). The term splits into the logits and the log-softmax of a 200 × 16 array; each is read at an
  entry, one operation at a time: a lane reduction as the sum or the maximum over the row, a column made from a
  vector and a column spread over 16 lanes as the entry of the row, the matrix product as the sum over the
  contracted coordinate.
-/
import proofs.«158636_g53910429499711_cont_9to1_m_389_3_alg».proof.Proof.Gen.KernelIdeal.Skeleton
import proofs.«158636_g53910429499711_cont_9to1_m_389_3_alg».proof.Proof.Spec
import Idealize.ShloMosaic.Lib.Pipeline.Value
import Idealize.ShloMosaic.Lib.ValueIdx
import Idealize.ShloMosaic.PureOps.Ideal.Laws

noncomputable section

namespace Cert.KernelIdeal.Pay1

open Cert.KernelIdeal Cert.KernelIdeal.Gen Cert.Sage Idealize.ShloMosaic Idealize.ShloMosaic.ValueIdx

/-! ## A column: made from a vector, and spread over the lanes -/

/-- An [a] vector viewed as an [a, 1] column reads, at (i, u), the vector at i. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column at row p. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane reductions -/

/-- The f32 word of -∞ is the bottom of the extended reals. -/
theorem ofBits_negInf : Ideal.ofBits .f32 0xFF800000#32 = ⊥ := by simp [Ideal.ofBits, Ideal.ieee]

/-- The sum over the lanes of an [a, b] array reads, at row p, the sum of the row. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext d
  match d with
  | ⟨0, _⟩ => rfl
  | ⟨1, _⟩ => rfl

/-- The maximum over the lanes of an [a, b] array reads, at row p, the fold of max from -∞ over the row. -/
theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  have e1 : (FloatOps.ofBits (F := Ideal) .f32 0xFF800000#32 : EReal) = ⊥ := ofBits_negInf
  have e2 : (src ∘ h.lift (ix1 p)) = fun k : Fin b => src (ix2 p k) :=
    funext fun k => congrArg src (funext fun d => by
      match d with
      | ⟨0, _⟩ => rfl
      | ⟨1, _⟩ => rfl)
  rw [e1, e2]
  rfl

/-! ## The matrix product of the block with the table -/

theorem lhs_dot_S200x10000_S10000x16_S200x16_1_0_0_1_n_n_0 (i : S200x16.Idx) (q : dot_S200x10000_S10000x16_S200x16_1_0_0_1_n_n.contr.Idx) :
    (dot_S200x10000_S10000x16_S200x16_1_0_0_1_n_n.lhsIdx i q 0).val = (i 0).val := by
  unfold DotDims.lhsIdx
  rw [dif_neg (show ¬(0 : Fin S200x10000.rank) ∈ dot_S200x10000_S10000x16_S200x16_1_0_0_1_n_n.lhsBatch by decide), dif_pos (show (0 : Fin S200x10000.rank) ∈ dot_S200x10000_S10000x16_S200x16_1_0_0_1_n_n.lhsNonContracting by decide)]
  rfl
theorem lhs_dot_S200x10000_S10000x16_S200x16_1_0_0_1_n_n_1 (i : S200x16.Idx) (q : dot_S200x10000_S10000x16_S200x16_1_0_0_1_n_n.contr.Idx) :
    (dot_S200x10000_S10000x16_S200x16_1_0_0_1_n_n.lhsIdx i q 1).val = (q ⟨0, by decide⟩).val :=
  dot_S200x10000_S10000x16_S200x16_1_0_0_1_n_n.lhsIdx_val_of_single rfl i q
theorem rhs_dot_S200x10000_S10000x16_S200x16_1_0_0_1_n_n_0 (i : S200x16.Idx) (q : dot_S200x10000_S10000x16_S200x16_1_0_0_1_n_n.contr.Idx) :
    (dot_S200x10000_S10000x16_S200x16_1_0_0_1_n_n.rhsIdx i q 0).val = (q ⟨0, by decide⟩).val :=
  dot_S200x10000_S10000x16_S200x16_1_0_0_1_n_n.rhsIdx_val_of_single rfl i q
theorem rhs_dot_S200x10000_S10000x16_S200x16_1_0_0_1_n_n_1 (i : S200x16.Idx) (q : dot_S200x10000_S10000x16_S200x16_1_0_0_1_n_n.contr.Idx) :
    (dot_S200x10000_S10000x16_S200x16_1_0_0_1_n_n.rhsIdx i q 1).val = (i 1).val := by
  unfold DotDims.rhsIdx
  rw [dif_neg (show ¬(1 : Fin S10000x16.rank) ∈ dot_S200x10000_S10000x16_S200x16_1_0_0_1_n_n.rhsBatch by decide), dif_pos (show (1 : Fin S10000x16.rank) ∈ dot_S200x10000_S10000x16_S200x16_1_0_0_1_n_n.rhsNonContracting by decide)]
  rfl

/-- The product of a [200, 10000] block with a [10000, 16] table, accumulated into zeros, reads at (p, c) the sum
    over j of the block at (p, j) times the table at (j, c). -/
theorem matmul_blockTable_apply (lhs : FVec Ideal S200x10000 .f32) (rhs : FVec Ideal S10000x16 .f32) (p : Fin 200) (c : Fin 16) :
    matmul dot_S200x10000_S10000x16_S200x16_1_0_0_1_n_n none lhs rhs (constant (F := Ideal) S200x16 .f32 0x00000000#32) (ix2 p c)
      = ∑ j : Fin 10000, lhs (ix2 p j) * rhs (ix2 j c) := by
  simp only [matmul]
  rw [Ideal.matmul_constant_zero_apply, ← Equiv.sum_comp (contrEquiv1 dot_S200x10000_S10000x16_S200x16_1_0_0_1_n_n 10000 rfl rfl).symm]
  refine Finset.sum_congr rfl fun k _ => ?_
  have hk := contrEquiv1_symm_val dot_S200x10000_S10000x16_S200x16_1_0_0_1_n_n 10000 rfl rfl k
  have el : dot_S200x10000_S10000x16_S200x16_1_0_0_1_n_n.lhsIdx (ix2 p c) ((contrEquiv1 dot_S200x10000_S10000x16_S200x16_1_0_0_1_n_n 10000 rfl rfl).symm k) = ix2 p k := funext fun a => Fin.ext (by
    match a with
    | ⟨0, _⟩ => exact lhs_dot_S200x10000_S10000x16_S200x16_1_0_0_1_n_n_0 _ _
    | ⟨1, _⟩ => exact (lhs_dot_S200x10000_S10000x16_S200x16_1_0_0_1_n_n_1 _ _).trans hk)
  have er : dot_S200x10000_S10000x16_S200x16_1_0_0_1_n_n.rhsIdx (ix2 p c) ((contrEquiv1 dot_S200x10000_S10000x16_S200x16_1_0_0_1_n_n 10000 rfl rfl).symm k) = ix2 k c := funext fun a => Fin.ext (by
    match a with
    | ⟨0, _⟩ => exact (rhs_dot_S200x10000_S10000x16_S200x16_1_0_0_1_n_n_0 _ _).trans hk
    | ⟨1, _⟩ => exact rhs_dot_S200x10000_S10000x16_S200x16_1_0_0_1_n_n_1 _ _)
  rw [el, er]

/-! ## The logits -/

/-- The clamped degrees of the block's rows, as a column. -/
def degV (v0 : FVec Ideal S200x10000 .f32) : FVec Ideal S200x1 .f32 :=
  maximumf (shapeCast S200x1 (multiReduction (F := Ideal) .add [1] S200 v0 0x00000000#32 reduces_S200x10000_S200 (.inl rfl) rfl) shapeCasts_S200_S200x1)
    (broadcast S200x1 (Scalar.ofBits .f32 0x2B8CBCCC#32))

/-- Row p of the column is the clamped degree of row p of the block. -/
theorem degV_apply (v0 : FVec Ideal S200x10000 .f32) (p : Fin 200) (u : Fin 1) :
    degV v0 (ix2 p u) = deg (fun j => v0 (ix2 p j)) := by
  show max (shapeCast S200x1 _ shapeCasts_S200_S200x1 (ix2 p u)) (Ideal.ofBits .f32 0x2B8CBCCC#32) = _
  rw [shapeCast_col_apply, laneSum_apply]
  rfl

/-- The logits of the block's rows: the own half plus the block times the table over the degrees. -/
def logitsV (v0 : FVec Ideal S200x10000 .f32) (v5 : FVec Ideal S10000x16 .f32) (v8 : FVec Ideal S200x16 .f32) : FVec Ideal S200x16 .f32 :=
  addf (shapeCast S200x16 v8 shapeCasts_S200x16_S200x16)
    (divf (matmul dot_S200x10000_S10000x16_S200x16_1_0_0_1_n_n none v0 (shapeCast S10000x16 v5 shapeCasts_S10000x16_S10000x16) (constant S200x16 .f32 0x00000000#32))
      (broadcastTo S200x16 (degV v0) broadcasts_S200x1_S200x16))

/-- Entry (p, c) of the logits is the specification's logit of row p at column c. -/
theorem logitsV_apply (v0 : FVec Ideal S200x10000 .f32) (v5 : FVec Ideal S10000x16 .f32) (v8 : FVec Ideal S200x16 .f32) (p : Fin 200) (c : Fin 16) :
    logitsV v0 v5 v8 (ix2 p c) = logitsK (fun j => v0 (ix2 p j)) (fun c => v8 (ix2 p c)) (fun j c => v5 (ix2 j c)) c := by
  unfold logitsV
  rw [shapeCast_self, shapeCast_self]
  show v8 (ix2 p c) + Ideal.div (matmul dot_S200x10000_S10000x16_S200x16_1_0_0_1_n_n none v0 v5 (constant (F := Ideal) S200x16 .f32 0x00000000#32) (ix2 p c))
      (broadcastTo S200x16 (degV v0) broadcasts_S200x1_S200x16 (ix2 p c)) = _
  rw [matmul_blockTable_apply, broadcastTo_col_apply, degV_apply]
  rfl

/-! ## The log-softmax of a [200, 16] array -/

/-- Each row shifted by its maximum. -/
def shiftV (z : FVec Ideal S200x16 .f32) : FVec Ideal S200x16 .f32 :=
  subf z (broadcastTo S200x16 (shapeCast S200x1 (multiReduction (F := Ideal) .maximumf [1] S200 z 0xFF800000#32 reduces_S200x16_S200 (.inl rfl) rfl) shapeCasts_S200_S200x1) broadcasts_S200x1_S200x16)

theorem shiftV_apply (z : FVec Ideal S200x16 .f32) (p : Fin 200) (c : Fin 16) :
    shiftV z (ix2 p c) = z (ix2 p c) - rowMax (fun c' => z (ix2 p c')) := by
  show z (ix2 p c) - broadcastTo S200x16 _ broadcasts_S200x1_S200x16 (ix2 p c) = _
  rw [broadcastTo_col_apply, shapeCast_col_apply, laneMax_apply]
  rfl

/-- The shifted rows less the logarithm of the sum of their exponentials. -/
def lsmV (z : FVec Ideal S200x16 .f32) : FVec Ideal S200x16 .f32 :=
  subf (shiftV z) (broadcastTo S200x16 (log (shapeCast S200x1 (multiReduction (F := Ideal) .add [1] S200 (exp (shiftV z)) 0x00000000#32 reduces_S200x16_S200 (.inl rfl) rfl) shapeCasts_S200_S200x1)) broadcasts_S200x1_S200x16)

/-- Entry (p, q) is the specification's log-softmax of row p at column q. -/
theorem lsmV_apply (z : FVec Ideal S200x16 .f32) (p : Fin 200) (q : Fin 16) :
    lsmV z (ix2 p q) = lsm (fun c => z (ix2 p c)) q := by
  show shiftV z (ix2 p q) - broadcastTo S200x16 _ broadcasts_S200x1_S200x16 (ix2 p q) = _
  rw [broadcastTo_col_apply]
  show shiftV z (ix2 p q) - Ideal.log (shapeCast S200x1 _ shapeCasts_S200_S200x1 (ix2 p (0 : Fin 1))) = _
  rw [shapeCast_col_apply, laneSum_apply]
  show shiftV z (ix2 p q) - Ideal.log (∑ k : Fin 16, Ideal.exp (shiftV z (ix2 p k))) = _
  simp only [shiftV_apply]
  rfl

/-! ## The payload -/

/-- The payload is the log-softmax of the logits. -/
theorem pay1_split (v0 : Vec Ideal S200x10000 .f32) (v5 : Vec Ideal S10000x16 .f32) (v8 : Vec Ideal S200x16 .f32) :
    k1_pay1 (F := Ideal) v0 v5 v8 = lsmV (logitsV v0 v5 v8) := rfl

/-- Entry (p, q) of what the second pass stores: the log-softmax, at column q, of the logits of row p. -/
theorem pay1_apply (v0 : Vec Ideal S200x10000 .f32) (v5 : Vec Ideal S10000x16 .f32) (v8 : Vec Ideal S200x16 .f32) (p : Fin 200) (q : Fin 16) :
    k1_pay1 (F := Ideal) v0 v5 v8 (ix2 p q) = lsm (logitsK (fun j => v0 (ix2 p j)) (fun c => v8 (ix2 p c)) (fun j c => v5 (ix2 j c))) q := by
  rw [pay1_split, lsmV_apply]
  exact congrArg (fun z => lsm z q) (funext fun c => logitsV_apply v0 v5 v8 p c)

end Cert.KernelIdeal.Pay1

end
-- ==== Proof.KI.KValue.lean ====
/-
  The idealized kernel's result array as one function of the argument arrays.

  The second pass's final array is, row by row, the log-softmax of the kernel's logits of that row, read off the adjacency
  matrix and the two 16-wide tables the first pass wrote; those tables are, row by row, the own half and the neighbour half
  of the second layer, read off the arguments (the bias rows being the reshaped bias vectors). Substituting the tables
  gives the network's kernel form `outK` of the six arguments.
-/
import proofs.«158636_g53910429499711_cont_9to1_m_389_3_alg».proof.Proof.KI.Run
import proofs.«158636_g53910429499711_cont_9to1_m_389_3_alg».proof.Proof.KI.Value0
import proofs.«158636_g53910429499711_cont_9to1_m_389_3_alg».proof.Proof.KI.Value1
import proofs.«158636_g53910429499711_cont_9to1_m_389_3_alg».proof.Proof.Pay0
import proofs.«158636_g53910429499711_cont_9to1_m_389_3_alg».proof.Proof.Pay1
import Idealize.ShloMosaic.Lib.ValueLayout
import Idealize.ShloMosaic.Lib.StableHlo.Run

noncomputable section

namespace Cert.KernelIdeal.Hand

open Cert.KernelIdeal Cert.KernelIdeal.Gen Cert.Sage
open Idealize.ShloMosaic Idealize.ShloMosaic.TcCoe Idealize.ShloMosaic.ValueIdx Idealize.SL.Sem

variable (m : (ℓ : Loc nD τ sig) → Buf (Elt Ideal) ℓ)

/-- A table made from a function of two coordinates reads back as that function. -/
theorem arr2_unarr2 {n0 n1 : Nat} (f : Fin n0 → Fin n1 → EReal) : arr2 (unarr2 f) = f := rfl

/-- The first pass finds each argument as launched. -/
theorem V1_main_arg0 (c : Dev nD) : V1 m c main_arg0 = m ((c : Thread nD τ).loc main_arg0) := (W1_of m c main_arg0 (by decide)).trans rfl
theorem V1_main_arg1 (c : Dev nD) : V1 m c main_arg1 = m ((c : Thread nD τ).loc main_arg1) := (W1_of m c main_arg1 (by decide)).trans rfl
theorem V1_main_arg2 (c : Dev nD) : V1 m c main_arg2 = m ((c : Thread nD τ).loc main_arg2) := (W1_of m c main_arg2 (by decide)).trans rfl
theorem V1_main_arg4 (c : Dev nD) : V1 m c main_arg4 = m ((c : Thread nD τ).loc main_arg4) := (W1_of m c main_arg4 (by decide)).trans rfl
/-- The second pass finds the adjacency matrix as launched. -/
theorem V2_main_arg1 (c : Dev nD) : V2 m c main_arg1 = m ((c : Thread nD τ).loc main_arg1) :=
  (W2_of m c main_arg1 (by decide)).trans (V1_main_arg1 m c)

/-- The first bias row the first pass finds is the reshaped first bias vector, -/
theorem V1_bias1 (c : Dev nD) : (V1 m c main_call0_v0 : S1x128.Idx → EReal) = shapeCast S1x128 (m ((c : Thread nD τ).loc main_arg3)) shapeCasts_S128_S1x128 := by
  dsimp only [V1, W1, hostOps0]; after_results; rfl
/-- and the second the reshaped second bias vector. -/
theorem V1_bias2 (c : Dev nD) : (V1 m c main_call0_v1 : S1x16.Idx → EReal) = shapeCast S1x16 (m ((c : Thread nD τ).loc main_arg5)) shapeCasts_S16_S1x16 := by
  dsimp only [V1, W1, hostOps0]; after_results; rfl
theorem bias1_row (c : Dev nD) : arr2 (V1 m c main_call0_v0) 0 = arr1 (m ((c : Thread nD τ).loc main_arg3)) := by
  funext k; unfold arr2 arr1; rw [V1_bias1]; exact shapeCast_a_1a_apply _ _ 0 k
theorem bias2_row (c : Dev nD) : arr2 (V1 m c main_call0_v1) 0 = arr1 (m ((c : Thread nD τ).loc main_arg5)) := by
  funext k; unfold arr2 arr1; rw [V1_bias2]; exact shapeCast_a_1a_apply _ _ 0 k

/-- The kernel's result, as the network's kernel form of the six arguments. -/
theorem kernel_value (c : Dev nD) :
    (dat1 (F := Ideal) (V2 m) c).arrAt 3 cfg1.N
      = unarr2 (outK (arr2 (m ((c : Thread nD τ).loc main_arg1))) (arr2 (m ((c : Thread nD τ).loc main_arg0))) (arr2 (m ((c : Thread nD τ).loc main_arg2)))
          (arr1 (m ((c : Thread nD τ).loc main_arg3))) (arr2 (m ((c : Thread nD τ).loc main_arg4))) (arr1 (m ((c : Thread nD τ).loc main_arg5)))) := by
  rw [final1_3 (V2 m) Pay1.pay1_apply c]
  have e0 : (V2 m c main_call0_v2_0) = _ := (W2_v2_0 m c).trans (final0_7 (V1 m) Pay.pay2_apply c)
  have e1 : (V2 m c main_call0_v2_1) = _ := (W2_v2_1 m c).trans (final0_8 (V1 m) Pay.pay3_apply c)
  rw [e0, e1, V2_main_arg1, arr2_unarr2, arr2_unarr2, V1_main_arg0, V1_main_arg1, V1_main_arg2, V1_main_arg4, bias1_row, bias2_row]
  rfl

end Cert.KernelIdeal.Hand

end
-- ==== Proof.RefValue.lean ====
/-
  The reference network read off the reference program, entry by entry.

  The reference computes, with a the adjacency matrix and x the features: the clamped degree of every row of a; the
  neighbour mean of x (a times x over the degrees); the hidden table, each row the feature row joined with its
  neighbour mean, times the first weight matrix, plus the bias, clamped at zero; the neighbour mean of the hidden
  table; the logits, each row the hidden row joined with its neighbour mean, times the second weight matrix, plus the
  bias; and the row-wise log-softmax of the logits (the row maximum folded from -∞, the shifted logits, the logarithm
  of the sum of their exponentials). Each stage is read at an entry (p, ·) from the stages before it, and the last
  stage is the specification's reference network at every entry.
-/
import proofs.«158636_g53910429499711_cont_9to1_m_389_3_alg».proof.Defs
import proofs.«158636_g53910429499711_cont_9to1_m_389_3_alg».proof.Proof.RefReadP
import proofs.«158636_g53910429499711_cont_9to1_m_389_3_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Cert.Sage Idealize.ShloMosaic Idealize.ShloMosaic.ValueIdx Idealize.ShloMosaic.TcCoe Idealize.SL.Sem

/-! ## Words and indices -/

/-- The f32 word of -∞ is the bottom of the extended reals. -/
theorem ofBits_negInf : Ideal.ofBits .f32 0xFF800000#32 = ⊥ := by simp [Ideal.ofBits, Ideal.ieee]

/-- Two rank-two indices with the same coordinates are equal. -/
theorem idx2_ext {n0 n1 : ℕ} {x y : (⟨2, ![n0, n1]⟩ : Shape).Idx} (h0 : (x 0).val = (y 0).val) (h1 : (x 1).val = (y 1).val) : x = y :=
  funext fun a => Fin.ext (by match a with | ⟨0, _⟩ => exact h0 | ⟨1, _⟩ => exact h1)

/-- Two rank-one indices with the same coordinate are equal. -/
theorem idx1_ext {n : ℕ} {x y : (⟨1, ![n]⟩ : Shape).Idx} (h0 : (x 0).val = (y 0).val) : x = y :=
  funext fun a => Fin.ext (by match a with | ⟨0, _⟩ => exact h0)

/-! ## The clamped degree -/

/-- The first layer's degree column at row p is the clamped degree of row p of the adjacency matrix. -/
theorem v2_at (x1 : (⟨S10000x10000, .f32⟩ : BufTy).Contents (Elt Ideal)) (p : Fin 10000) (u : Fin 1) :
    val_main_v2 (F := Ideal) x1 (ix2 p u) = deg (arr2 x1 p) := by
  rw [val_main_v2_apply, val_main_call0_v1_apply, val_main_call0_v0_apply, val_main_cst_0_apply, val_main_v1_apply,
    val_main_v0_apply, val_main_cst_apply]
  simp only [Ideal.maximumf_def, Ideal.ofBits_def, Ideal.ofBits_zero_f32, zero_add]
  rw [max_comm]
  unfold deg eps arr2
  refine congrArg (fun s => max s _) (Finset.sum_congr rfl fun k _ => congrArg x1 (idx2_ext rfl rfl))

/-- The second layer's degree column is the same. -/
theorem v14_at (x1 : (⟨S10000x10000, .f32⟩ : BufTy).Contents (Elt Ideal)) (p : Fin 10000) (u : Fin 1) :
    val_main_v14 (F := Ideal) x1 (ix2 p u) = deg (arr2 x1 p) := by
  rw [val_main_v14_apply, val_main_call2_v1_apply, val_main_call2_v0_apply, val_main_cst_2_apply, val_main_v13_apply,
    val_main_v12_apply, val_main_cst_1_apply]
  simp only [Ideal.maximumf_def, Ideal.ofBits_def, Ideal.ofBits_zero_f32, zero_add]
  rw [max_comm]
  unfold deg eps arr2
  refine congrArg (fun s => max s _) (Finset.sum_congr rfl fun k _ => congrArg x1 (idx2_ext rfl rfl))

/-! ## The neighbour mean of the features -/

/-- Entry (p, l) of the first quotient is the neighbour mean of the features at column l. -/
theorem v5_at (x0 : (⟨S10000x128, .f32⟩ : BufTy).Contents (Elt Ideal)) (x1 : (⟨S10000x10000, .f32⟩ : BufTy).Contents (Elt Ideal)) (p : Fin 10000) (l : Fin 128) :
    val_main_v5 (F := Ideal) x0 x1 (ix2 p l) = agg (arr2 x1 p) (arr2 x0) l := by
  rw [val_main_v5_apply, val_main_v3_apply, val_main_v4_apply]
  rw [show idx_main_v4 (ix2 p l) = ix2 p (0 : Fin 1) from idx2_ext rfl rfl, v2_at]
  simp only [Ideal.hostDivf_def]
  unfold agg arr2
  refine congrArg (fun s => Ideal.div s _) (Finset.sum_congr rfl fun k _ => ?_)
  rw [show lidx_main_v3 (ix2 p l) k = ix2 p k from idx2_ext rfl rfl, show ridx_main_v3 (ix2 p l) k = ix2 k l from idx2_ext rfl rfl]

/-! ## Two 128-wide tables joined along the columns -/

/-- Entry (p, l) of the join of two [n, 128] tables is the joined row p at l. -/
theorem concat_cols_at {n : ℕ} (u v : (⟨2, ![n, 128]⟩ : Shape).Idx → EReal)
    (h : Shape.Concatenates [(⟨2, ![n, 128]⟩ : Shape), ⟨2, ![n, 128]⟩] ⟨2, ![n, 256]⟩ 1) (p : Fin n) (l : Fin 256) :
    concatenate (⟨2, ![n, 256]⟩ : Shape) 1 [⟨(⟨2, ![n, 128]⟩ : Shape), u⟩, ⟨(⟨2, ![n, 128]⟩ : Shape), v⟩] h (ix2 p l)
      = cat (fun k => u (ix2 p k)) (fun k => v (ix2 p k)) l := by
  unfold cat
  by_cases hl : l.val < 128
  · rw [dif_pos hl]
    refine concatenate_pair_apply_left 1 u v h (ix2 p l) rfl (ix2 p ⟨l.val, hl⟩) fun b => ?_
    match b with
    | ⟨0, _⟩ => rfl
    | ⟨1, _⟩ => rfl
  · rw [dif_neg hl]
    refine concatenate_pair_apply_right 1 u v h (ix2 p l) rfl rfl (ix2 p ⟨l.val - 128, by omega⟩) (fun b hb => ?_) ?_
    · match b with
      | ⟨0, _⟩ => rfl
      | ⟨1, _⟩ => exact absurd rfl hb
    · show l.val - 128 + 128 = l.val
      omega

/-- Entry (p, l) of the first join: the features' row p joined with its neighbour mean. -/
theorem v6_at (x0 : (⟨S10000x128, .f32⟩ : BufTy).Contents (Elt Ideal)) (x1 : (⟨S10000x10000, .f32⟩ : BufTy).Contents (Elt Ideal)) (p : Fin 10000) (l : Fin 256) :
    val_main_v6 (F := Ideal) x0 x1 (ix2 p l) = cat (arr2 x0 p) (agg (arr2 x1 p) (arr2 x0)) l := by
  unfold val_main_v6
  rw [concat_cols_at]
  exact congrArg (fun v => cat (arr2 x0 p) v l) (funext fun k => v5_at x0 x1 p k)

/-! ## The hidden table -/

/-- Entry (p, k) of the hidden table is the reference's hidden row of node p at k. -/
theorem v11_at (x0 : (⟨S10000x128, .f32⟩ : BufTy).Contents (Elt Ideal)) (x1 : (⟨S10000x10000, .f32⟩ : BufTy).Contents (Elt Ideal)) (x2 : (⟨S256x128, .f32⟩ : BufTy).Contents (Elt Ideal)) (x3 : (⟨S128, .f32⟩ : BufTy).Contents (Elt Ideal)) (p : Fin 10000) (k : Fin 128) :
    val_main_v11 (F := Ideal) x0 x1 x2 x3 (ix2 p k) = hidR (arr2 x1 p) (arr2 x0 p) (arr2 x0) (arr2 x2) (arr1 x3) k := by
  rw [val_main_v11_apply, val_main_v10_apply, val_main_v7_apply, val_main_v9_apply, val_main_v8_apply, val_main_call1_v0_apply,
    val_main_call1_cst_apply]
  simp only [Ideal.maximumf_def, Ideal.addf_def, Ideal.ofBits_def, Ideal.ofBits_zero_f32]
  unfold hidR
  refine congrArg (fun s => max s 0) ?_
  refine congrArg₂ (· + ·) (Finset.sum_congr rfl fun l _ => ?_) (congrArg x3 (idx1_ext rfl))
  rw [show lidx_main_v7 (ix2 p k) l = ix2 p l from idx2_ext rfl rfl, show ridx_main_v7 (ix2 p k) l = ix2 l k from idx2_ext rfl rfl, v6_at]
  rfl

/-- The hidden table as the specification writes it: node j's hidden row. -/
def hidT (x0 : (⟨S10000x128, .f32⟩ : BufTy).Contents (Elt Ideal)) (x1 : (⟨S10000x10000, .f32⟩ : BufTy).Contents (Elt Ideal)) (x2 : (⟨S256x128, .f32⟩ : BufTy).Contents (Elt Ideal)) (x3 : (⟨S128, .f32⟩ : BufTy).Contents (Elt Ideal)) : Fin 10000 → Fin 128 → EReal :=
  fun j => hidR (arr2 x1 j) (arr2 x0 j) (arr2 x0) (arr2 x2) (arr1 x3)

/-! ## The neighbour mean of the hidden table -/

/-- Entry (p, l) of the second quotient is the neighbour mean of the hidden table at column l. -/
theorem v17_at (x0 : (⟨S10000x128, .f32⟩ : BufTy).Contents (Elt Ideal)) (x1 : (⟨S10000x10000, .f32⟩ : BufTy).Contents (Elt Ideal)) (x2 : (⟨S256x128, .f32⟩ : BufTy).Contents (Elt Ideal)) (x3 : (⟨S128, .f32⟩ : BufTy).Contents (Elt Ideal)) (p : Fin 10000) (l : Fin 128) :
    val_main_v17 (F := Ideal) x0 x1 x2 x3 (ix2 p l) = agg (arr2 x1 p) (hidT x0 x1 x2 x3) l := by
  rw [val_main_v17_apply, val_main_v15_apply, val_main_v16_apply]
  rw [show idx_main_v16 (ix2 p l) = ix2 p (0 : Fin 1) from idx2_ext rfl rfl, v14_at]
  simp only [Ideal.hostDivf_def]
  unfold agg
  refine congrArg (fun s => Ideal.div s _) (Finset.sum_congr rfl fun k _ => ?_)
  rw [show lidx_main_v15 (ix2 p l) k = ix2 p k from idx2_ext rfl rfl, show ridx_main_v15 (ix2 p l) k = ix2 k l from idx2_ext rfl rfl, v11_at]
  rfl

/-- Entry (p, l) of the second join: the hidden row of node p joined with its neighbour mean. -/
theorem v18_at (x0 : (⟨S10000x128, .f32⟩ : BufTy).Contents (Elt Ideal)) (x1 : (⟨S10000x10000, .f32⟩ : BufTy).Contents (Elt Ideal)) (x2 : (⟨S256x128, .f32⟩ : BufTy).Contents (Elt Ideal)) (x3 : (⟨S128, .f32⟩ : BufTy).Contents (Elt Ideal)) (p : Fin 10000) (l : Fin 256) :
    val_main_v18 (F := Ideal) x0 x1 x2 x3 (ix2 p l) = cat (hidT x0 x1 x2 x3 p) (agg (arr2 x1 p) (hidT x0 x1 x2 x3)) l := by
  unfold val_main_v18
  rw [concat_cols_at]
  exact congrArg₂ (fun u v => cat u v l) (funext fun k => v11_at x0 x1 x2 x3 p k) (funext fun k => v17_at x0 x1 x2 x3 p k)

/-! ## The logits -/

/-- Entry (p, c) of the logits is the reference's logit of node p at column c. -/
theorem v22_at (x0 : (⟨S10000x128, .f32⟩ : BufTy).Contents (Elt Ideal)) (x1 : (⟨S10000x10000, .f32⟩ : BufTy).Contents (Elt Ideal)) (x2 : (⟨S256x128, .f32⟩ : BufTy).Contents (Elt Ideal)) (x3 : (⟨S128, .f32⟩ : BufTy).Contents (Elt Ideal)) (x4 : (⟨S256x16, .f32⟩ : BufTy).Contents (Elt Ideal)) (x5 : (⟨S16, .f32⟩ : BufTy).Contents (Elt Ideal)) (p : Fin 10000) (c : Fin 16) :
    val_main_v22 (F := Ideal) x0 x1 x2 x3 x4 x5 (ix2 p c)
      = logitsR (arr2 x1 p) (hidT x0 x1 x2 x3 p) (hidT x0 x1 x2 x3) (arr2 x4) (arr1 x5) c := by
  rw [val_main_v22_apply, val_main_v19_apply, val_main_v21_apply, val_main_v20_apply]
  simp only [Ideal.addf_def]
  unfold logitsR
  refine congrArg₂ (· + ·) (Finset.sum_congr rfl fun l _ => ?_) (congrArg x5 (idx1_ext rfl))
  rw [show lidx_main_v19 (ix2 p c) l = ix2 p l from idx2_ext rfl rfl, show ridx_main_v19 (ix2 p c) l = ix2 l c from idx2_ext rfl rfl, v18_at]
  rfl

/-! ## The log-softmax -/

/-- The row maximum the reference takes: at row p, the maximum of the logits of row p folded from -∞. -/
theorem call3_v2_at (x0 : (⟨S10000x128, .f32⟩ : BufTy).Contents (Elt Ideal)) (x1 : (⟨S10000x10000, .f32⟩ : BufTy).Contents (Elt Ideal)) (x2 : (⟨S256x128, .f32⟩ : BufTy).Contents (Elt Ideal)) (x3 : (⟨S128, .f32⟩ : BufTy).Contents (Elt Ideal)) (x4 : (⟨S256x16, .f32⟩ : BufTy).Contents (Elt Ideal)) (x5 : (⟨S16, .f32⟩ : BufTy).Contents (Elt Ideal)) (p : Fin 10000) :
    val_main_call3_v2 (F := Ideal) x0 x1 x2 x3 x4 x5 (ix1 p)
      = rowMax (fun c => val_main_v22 (F := Ideal) x0 x1 x2 x3 x4 x5 (ix2 p c)) := by
  rw [val_main_call3_v2_apply, val_main_call3_v1_apply, val_main_call3_cst_0_apply]
  unfold val_main_call3_v0
  rw [Host.reduce_eq_fold_single FloatOps.maximumf _ _ reducesTo_S10000x16_S10000_d1 (by decide) h_S_, val_main_call3_cst_apply]
  simp only [Ideal.maximumf_def, Ideal.ofBits_def, ofBits_negInf]
  rw [max_eq_right bot_le]
  unfold rowMax
  refine congrArg (fun f => Finset.fold max ⊥ f (Finset.univ : Finset (Fin 16))) (funext fun k => ?_)
  exact congrArg (val_main_v22 (F := Ideal) x0 x1 x2 x3 x4 x5) (idx2_ext rfl rfl)

/-- The shifted logits: entry (p, c) less the maximum of row p. -/
theorem call3_v5_at (x0 : (⟨S10000x128, .f32⟩ : BufTy).Contents (Elt Ideal)) (x1 : (⟨S10000x10000, .f32⟩ : BufTy).Contents (Elt Ideal)) (x2 : (⟨S256x128, .f32⟩ : BufTy).Contents (Elt Ideal)) (x3 : (⟨S128, .f32⟩ : BufTy).Contents (Elt Ideal)) (x4 : (⟨S256x16, .f32⟩ : BufTy).Contents (Elt Ideal)) (x5 : (⟨S16, .f32⟩ : BufTy).Contents (Elt Ideal)) (p : Fin 10000) (c : Fin 16) :
    val_main_call3_v5 (F := Ideal) x0 x1 x2 x3 x4 x5 (ix2 p c)
      = val_main_v22 (F := Ideal) x0 x1 x2 x3 x4 x5 (ix2 p c) - rowMax (fun c' => val_main_v22 (F := Ideal) x0 x1 x2 x3 x4 x5 (ix2 p c')) := by
  rw [val_main_call3_v5_apply, val_main_call3_v4_apply, val_main_call3_v3_apply]
  rw [show idx_main_call3_v3 (idx_main_call3_v4 (ix2 p c)) = ix1 p from idx1_ext rfl, call3_v2_at]
  rfl

/-- Entry (p, q) of the reference's result is the log-softmax of the logits of row p at column q. -/
theorem v23_at (x0 : (⟨S10000x128, .f32⟩ : BufTy).Contents (Elt Ideal)) (x1 : (⟨S10000x10000, .f32⟩ : BufTy).Contents (Elt Ideal)) (x2 : (⟨S256x128, .f32⟩ : BufTy).Contents (Elt Ideal)) (x3 : (⟨S128, .f32⟩ : BufTy).Contents (Elt Ideal)) (x4 : (⟨S256x16, .f32⟩ : BufTy).Contents (Elt Ideal)) (x5 : (⟨S16, .f32⟩ : BufTy).Contents (Elt Ideal)) (p : Fin 10000) (q : Fin 16) :
    val_main_v23 (F := Ideal) x0 x1 x2 x3 x4 x5 (ix2 p q)
      = lsm (fun c => val_main_v22 (F := Ideal) x0 x1 x2 x3 x4 x5 (ix2 p c)) q := by
  rw [val_main_v23_apply, val_main_call3_v10_apply, val_main_call3_v9_apply, val_main_call3_v8_apply, val_main_call3_v7_apply,
    val_main_call3_cst_1_apply, call3_v5_at]
  simp only [Ideal.subf_def, Ideal.hostUnary_log_def, Ideal.ofBits_def, Ideal.ofBits_zero_f32, zero_add]
  unfold lsm
  refine congrArg (fun s => _ - Ideal.log s) (Finset.sum_congr rfl fun k _ => ?_)
  rw [val_main_call3_v6_apply]
  simp only [Ideal.hostUnary_exp_def]
  rw [show idx_main_call3_v7 (idx_main_call3_v8 (idx_main_call3_v10 (ix2 p q))) k = ix2 p k from idx2_ext rfl rfl, call3_v5_at]

/-! ## The reference's result -/

/-- The reference's last stage, entry by entry, is the specification's reference network. -/
theorem v23_eq_outR (x0 : (⟨S10000x128, .f32⟩ : BufTy).Contents (Elt Ideal)) (x1 : (⟨S10000x10000, .f32⟩ : BufTy).Contents (Elt Ideal)) (x2 : (⟨S256x128, .f32⟩ : BufTy).Contents (Elt Ideal)) (x3 : (⟨S128, .f32⟩ : BufTy).Contents (Elt Ideal)) (x4 : (⟨S256x16, .f32⟩ : BufTy).Contents (Elt Ideal)) (x5 : (⟨S16, .f32⟩ : BufTy).Contents (Elt Ideal)) :
    val_main_v23 (F := Ideal) x0 x1 x2 x3 x4 x5
      = unarr2 (outR (arr2 x1) (arr2 x0) (arr2 x2) (arr1 x3) (arr2 x4) (arr1 x5)) := by
  funext i
  obtain ⟨p, q, rfl⟩ : ∃ (p : Fin 10000) (q : Fin 16), i = ix2 p q := ⟨i 0, i 1, eq_ix2 i⟩
  rw [v23_at, unarr2_ix2]
  unfold outR
  exact congrArg (fun z => lsm z q) (funext fun c => v22_at x0 x1 x2 x3 x4 x5 p c)

/-- What the reference's run leaves in its result buffer: the specification's reference network of the six arguments. -/
theorem res_eq (m : (ℓ : Loc nD τ sig) → Buf (Elt Ideal) ℓ) (c : Dev nD) :
    Cert.ReferenceIdeal.ValueP.res_out0 (F := Ideal) m c
      = unarr2 (outR (arr2 (m ((c.tc : Thread nD τ).loc main_arg1))) (arr2 (m ((c.tc : Thread nD τ).loc main_arg0))) (arr2 (m ((c.tc : Thread nD τ).loc main_arg2))) (arr1 (m ((c.tc : Thread nD τ).loc main_arg3))) (arr2 (m ((c.tc : Thread nD τ).loc main_arg4))) (arr1 (m ((c.tc : Thread nD τ).loc main_arg5)))) :=
  (Cert.ReferenceIdeal.ReadP.val_main_v23_eq m c).trans (v23_eq_outR _ _ _ _ _ _)

end Cert.ReferenceIdeal.RefValue

end
-- ==== Proof.Algebra.lean ====
import proofs.«158636_g53910429499711_cont_9to1_m_389_3_alg».proof.Proof.Spec
import Mathlib.Data.EReal.Inv
import Mathlib.Algebra.BigOperators.Fin
import Mathlib.Tactic.Ring
import Mathlib.Tactic.Positivity

/-!
  The kernel's form of the network and the reference's form agree on real inputs.

  The first layer needs no finiteness: a sum over the 256 rows of a weight matrix against a joined row is the sum
  over the top 128 rows plus the sum over the bottom 128. The second layer moves a quotient by the clamped degree
  across a finite sum and exchanges two finite sums, which is done in the reals: every entry of the hidden table is
  a real number when the inputs are, and the clamped degree is a positive real.
-/

noncomputable section

namespace Cert.Sage

open Idealize.ShloMosaic

/-! ### Real numbers inside the extended reals -/

/-- The inclusion of the reals carries a finite sum to the finite sum. -/
theorem coe_sum {ι : Type*} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- The inclusion of the reals carries a maximum to the maximum. -/
theorem coe_max (x y : ℝ) : ((max x y : ℝ) : EReal) = max (x : EReal) (y : EReal) :=
  EReal.coe_strictMono.monotone.map_max

/-- The real value of the clamp floor: the word has sign 0, exponent field 87 and fraction field 834764. -/
def epsR : ℝ := (9223372 : ℝ) * (2 : ℝ) ^ (-63 : Int)

theorem eps_eq : eps = ((epsR : ℝ) : EReal) := by
  unfold eps epsR
  simp [Ideal.ofBits, Ideal.ieee, -EReal.coe_mul]

theorem epsR_pos : 0 < epsR := by unfold epsR; positivity

/-! ### The first layer: a sum over 256 rows splits in two halves -/

theorem cat_lo (u v : Fin 128 → EReal) (k : Fin 128) : cat u v (lo k) = u k := by
  unfold cat lo
  simp

theorem cat_hi (u v : Fin 128 → EReal) (k : Fin 128) : cat u v (hi k) = v k := by
  unfold cat hi
  simp

theorem sum_cat (u v : Fin 128 → EReal) (w : Fin 256 → EReal) :
    ∑ l : Fin 256, cat u v l * w l = (∑ k, u k * w (lo k)) + (∑ k, v k * w (hi k)) := by
  have h := Fin.sum_univ_add (a := 128) (b := 128) (fun l : Fin (128 + 128) => cat u v l * w l)
  refine h.trans ?_
  refine congrArg₂ (· + ·) ?_ ?_
  · refine Finset.sum_congr rfl fun k _ => ?_
    have hk : (Fin.castAdd 128 k : Fin (128 + 128)) = lo k := Fin.ext rfl
    rw [hk, cat_lo]
  · refine Finset.sum_congr rfl fun k _ => ?_
    have hk : (Fin.natAdd 128 k : Fin (128 + 128)) = hi k := Fin.ext rfl
    rw [hk, cat_hi]

/-- The reference's hidden row is the kernel's, with no condition on the entries. -/
theorem hidR_eq_hid (arow : Fin 10000 → EReal) (xrow : Fin 128 → EReal) (x : Fin 10000 → Fin 128 → EReal)
    (w1 : Fin 256 → Fin 128 → EReal) (b1 : Fin 128 → EReal) :
    hidR arow xrow x w1 b1 = hid arow xrow x w1 b1 := by
  funext k
  unfold hidR hid
  rw [sum_cat xrow (agg arow x) (fun l => w1 l k)]

/-! ### The same quantities over the reals -/

/-- The clamped degree of a real row. -/
def degR (ar : Fin 10000 → ℝ) : ℝ := max (∑ j, ar j) epsR

theorem degR_pos (ar : Fin 10000 → ℝ) : 0 < degR ar := lt_max_of_lt_right epsR_pos

/-- The neighbour mean of a real table. -/
def aggR {n : Nat} (ar : Fin 10000 → ℝ) (v : Fin 10000 → Fin n → ℝ) (k : Fin n) : ℝ :=
  (∑ j, ar j * v j k) / degR ar

/-- The hidden row of real inputs. -/
def hidRe (ar : Fin 10000 → ℝ) (xr : Fin 128 → ℝ) (x : Fin 10000 → Fin 128 → ℝ)
    (w1 : Fin 256 → Fin 128 → ℝ) (b1 : Fin 128 → ℝ) (k : Fin 128) : ℝ :=
  max (((∑ l, xr l * w1 (lo l) k) + (∑ l, aggR ar x l * w1 (hi l) k)) + b1 k) 0

theorem deg_eq {arow : Fin 10000 → EReal} {ar : Fin 10000 → ℝ} (h : ∀ j, arow j = (ar j : EReal)) :
    deg arow = ((degR ar : ℝ) : EReal) := by
  unfold deg degR
  simp only [h]
  rw [coe_max, coe_sum, eps_eq]

theorem agg_eq {n : Nat} {arow : Fin 10000 → EReal} {ar : Fin 10000 → ℝ} (h : ∀ j, arow j = (ar j : EReal))
    {v : Fin 10000 → Fin n → EReal} {vr : Fin 10000 → Fin n → ℝ} (hv : ∀ j k, v j k = (vr j k : EReal))
    (k : Fin n) : agg arow v k = ((aggR ar vr k : ℝ) : EReal) := by
  unfold agg aggR
  rw [deg_eq h, Ideal.div_coe (degR_pos ar).ne']
  simp only [h, hv]
  rw [div_eq_mul_one_div (∑ j, ar j * vr j k) (degR ar), EReal.coe_mul, coe_sum]
  simp only [EReal.coe_mul]

/-- Every entry of the hidden table is real when the inputs are. -/
theorem hid_eq {arow : Fin 10000 → EReal} {ar : Fin 10000 → ℝ} (h : ∀ j, arow j = (ar j : EReal))
    {xrow : Fin 128 → EReal} {xr : Fin 128 → ℝ} (hxr : ∀ l, xrow l = (xr l : EReal))
    {x : Fin 10000 → Fin 128 → EReal} {x' : Fin 10000 → Fin 128 → ℝ} (hx : ∀ j l, x j l = (x' j l : EReal))
    {w1 : Fin 256 → Fin 128 → EReal} {w1' : Fin 256 → Fin 128 → ℝ} (hw1 : ∀ l k, w1 l k = (w1' l k : EReal))
    {b1 : Fin 128 → EReal} {b1' : Fin 128 → ℝ} (hb1 : ∀ k, b1 k = (b1' k : EReal)) (k : Fin 128) :
    hid arow xrow x w1 b1 k = ((hidRe ar xr x' w1' b1' k : ℝ) : EReal) := by
  unfold hid hidRe
  simp only [hxr, hw1, hb1, agg_eq h hx]
  rw [coe_max, EReal.coe_zero, EReal.coe_add, EReal.coe_add, coe_sum, coe_sum]
  simp only [EReal.coe_mul]

/-! ### The second layer: the mean of the products is the product with the mean -/

theorem aggR_sum {n : Nat} (ar : Fin 10000 → ℝ) (H : Fin 10000 → Fin 128 → ℝ) (wh : Fin 128 → Fin n → ℝ)
    (c : Fin n) : aggR ar (fun j c => ∑ k, H j k * wh k c) c = ∑ k, aggR ar H k * wh k c := by
  unfold aggR
  simp only [Finset.mul_sum, Finset.sum_div, Finset.sum_mul]
  rw [Finset.sum_comm]
  refine Finset.sum_congr rfl fun k _ => Finset.sum_congr rfl fun j _ => ?_
  ring

/-- One row of the second layer: the kernel's two halves kept apart against the reference's joined row. -/
theorem row_law {arow : Fin 10000 → EReal} {ar : Fin 10000 → ℝ} (h : ∀ j, arow j = (ar j : EReal))
    {H : Fin 10000 → Fin 128 → EReal} {Hr : Fin 10000 → Fin 128 → ℝ} (hH : ∀ j k, H j k = (Hr j k : EReal))
    {hrow : Fin 128 → EReal} {hr : Fin 128 → ℝ} (hh : ∀ k, hrow k = (hr k : EReal))
    {w2 : Fin 256 → Fin 16 → EReal} {w2' : Fin 256 → Fin 16 → ℝ} (hw2 : ∀ l c, w2 l c = (w2' l c : EReal))
    {b2 : Fin 16 → EReal} {b2' : Fin 16 → ℝ} (hb2 : ∀ c, b2 c = (b2' c : EReal)) (c : Fin 16) :
    logitsK arow (fun c => (∑ k, hrow k * w2 (lo k) c) + b2 c) (fun j c => ∑ k, H j k * w2 (hi k) c) c
      = logitsR arow hrow H w2 b2 c := by
  have hyn : ∀ j c, (∑ k, H j k * w2 (hi k) c) = ((∑ k, Hr j k * w2' (hi k) c : ℝ) : EReal) := by
    intro j c
    simp only [hH, hw2]
    rw [coe_sum]
    simp only [EReal.coe_mul]
  unfold logitsK logitsR
  rw [sum_cat, agg_eq h hyn c, aggR_sum]
  simp only [hh, hw2, hb2, agg_eq h hH]
  simp only [← EReal.coe_mul, ← coe_sum, ← EReal.coe_add]
  exact congrArg _ (by ring)

/-! ### The two programs' results -/

theorem outK_eq_outR (a : Fin 10000 → Fin 10000 → EReal) (x : Fin 10000 → Fin 128 → EReal)
    (w1 : Fin 256 → Fin 128 → EReal) (b1 : Fin 128 → EReal) (w2 : Fin 256 → Fin 16 → EReal) (b2 : Fin 16 → EReal)
    (ha : Real2 a) (hx : Real2 x) (hw1 : Real2 w1) (hb1 : Real1 b1) (hw2 : Real2 w2) (hb2 : Real1 b2) :
    outK a x w1 b1 w2 b2 = outR a x w1 b1 w2 b2 := by
  have ha : ∀ i j, ∃ r : ℝ, a i j = (r : EReal) := ha
  have hx : ∀ i j, ∃ r : ℝ, x i j = (r : EReal) := hx
  have hw1 : ∀ i j, ∃ r : ℝ, w1 i j = (r : EReal) := hw1
  have hb1 : ∀ i, ∃ r : ℝ, b1 i = (r : EReal) := hb1
  have hw2 : ∀ i j, ∃ r : ℝ, w2 i j = (r : EReal) := hw2
  have hb2 : ∀ i, ∃ r : ℝ, b2 i = (r : EReal) := hb2
  choose a' ha' using ha
  choose x' hx' using hx
  choose w1' hw1' using hw1
  choose b1' hb1' using hb1
  choose w2' hw2' using hw2
  choose b2' hb2' using hb2
  have hH : ∀ j k, hid (a j) (x j) x w1 b1 k = ((hidRe (a' j) (x' j) x' w1' b1' k : ℝ) : EReal) :=
    fun j k => hid_eq (ha' j) (hx' j) hx' hw1' hb1' k
  funext i c
  unfold outK outR
  refine congrArg (fun z => lsm z c) (funext fun c' => ?_)
  simp only [hidR_eq_hid]
  exact row_law (ha' i) hH (hH i) hw2' hb2' c'

end Cert.Sage

end
-- ==== Proof.Finite.lean ====
/-
  Finiteness of the inputs. The precondition is six tests `all (|x| < +∞)`, one per argument array, joined by `and`.
  Read at the extended reals, `|x|` is `max x (-x)` and the f32 word 0x7F800000 is `⊤`; an extended real whose
  absolute value lies below `⊤` is neither `⊥` nor `⊤`, hence a real number. So under the precondition every entry
  of every argument array is a real number.
-/
import proofs.«158636_g53910429499711_cont_9to1_m_389_3_alg».proof.Defs
import proofs.«158636_g53910429499711_cont_9to1_m_389_3_alg».proof.Proof.Gen.Pre_finite_inputs
import proofs.«158636_g53910429499711_cont_9to1_m_389_3_alg».proof.Proof.Spec
import Idealize.ShloMosaic.Lib.ReduceAll
import Idealize.ShloMosaic.Lib.StableHlo.Predicate

noncomputable section

namespace Cert.Sage

open Idealize.ShloMosaic Idealize.ShloMosaic.ValueIdx Idealize.SL.Sem

namespace Finite

/-- The f32 word of +∞ is the top of the extended reals. -/
theorem ofBits_inf : Ideal.ofBits .f32 0x7F800000#32 = (⊤ : EReal) := by
  simp [Ideal.ofBits, Ideal.ieee]

/-- An extended real whose absolute value `max x (-x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry of the mask `|x| < +∞` (the bound a scalar laid over the array's shape) being 1 says that entry of
    `x` is a real number. -/
theorem real_of_mask {s : Shape} (x : FVec Ideal s .f32)
    (hb : (⟨0, ![]⟩ : Shape).BroadcastsInDim s ![]) (i : s.Idx)
    (h : cmpf .olt (Host.absf x) (broadcastInDim s ![] hb (constant (F := Ideal) ⟨0, ![]⟩ .f32 0x7F800000#32)) i = 1#1) :
    ∃ r : ℝ, x i = (r : EReal) := by
  apply real_of_abs_lt_top
  have h0 : 0 < (⟨0, ![]⟩ : Shape).numel := by decide
  simp only [cmpf, Host.absf, StableHlo.Predicate.bcast_scalar hb h0, constant] at h
  -- at the extended reals the comparison is the order's, the absolute value `max x (-x)`, the bound `⊤`
  have h1 : Ideal.cmp .olt (max (x i) (-x i)) (Ideal.ofBits .f32 0x7F800000#32) = 1#1 := h
  rw [ofBits_inf] at h1
  simpa [Ideal.cmp, StableHlo.Predicate.ofBool_eq_one_iff] using h1

end Finite

open Cert.Pre_finite_inputs in
/-- The precondition, all ones, says every entry of each of the six arrays is a real number: the conjunction splits into
    its six tests, each `all` gives its mask at every index, and each mask entry gives a real. -/
theorem real_of_fn [hP : Cert.Pre_finite_inputs.Facts]
    (x0 : FVec Ideal S10000x128 .f32) (x1 : FVec Ideal S10000x10000 .f32) (x2 : FVec Ideal S256x128 .f32)
    (x3 : FVec Ideal S128 .f32) (x4 : FVec Ideal S256x16 .f32) (x5 : FVec Ideal S16 .f32)
    (h : Cert.Pre_finite_inputs.fn (F := Ideal) x0 x1 x2 x3 x4 x5 = fun _ => 1#1) :
    Real2 (arr2 x0) ∧ Real2 (arr2 x1) ∧ Real2 (arr2 x2) ∧ Real1 (arr1 x3) ∧ Real2 (arr2 x4) ∧ Real1 (arr1 x5) := by
  haveI : Subsingleton S_.Idx := ⟨fun a b => funext fun d => d.elim0⟩
  have h' := congrFun h ix0
  dsimp only [Cert.Pre_finite_inputs.fn, Cert.Pre_finite_inputs.fn_part1, andi] at h'
  obtain ⟨h', e5⟩ := IntOp.andi_eq_one.1 h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  exact ⟨fun i j => Finite.real_of_mask x0 _ (ix2 i j) (Host.reduce_andi_all _ _ _ _ _ e0 _),
    fun i j => Finite.real_of_mask x1 _ (ix2 i j) (Host.reduce_andi_all _ _ _ _ _ e1 _),
    fun i j => Finite.real_of_mask x2 _ (ix2 i j) (Host.reduce_andi_all _ _ _ _ _ e2 _),
    fun i => Finite.real_of_mask x3 _ (ix1 i) (Host.reduce_andi_all _ _ _ _ _ e3 _),
    fun i j => Finite.real_of_mask x4 _ (ix2 i j) (Host.reduce_andi_all _ _ _ _ _ e4 _),
    fun i => Finite.real_of_mask x5 _ (ix1 i) (Host.reduce_andi_all _ _ _ _ _ e5 _)⟩

/-- Under the kernel's precondition every entry of each argument array, on every device, is a real number. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Real2 (arr2 (m ((c.tc : Thread Cert.KernelIdeal.nD Cert.KernelIdeal.τ).loc Cert.KernelIdeal.main_arg0)))
    ∧ Real2 (arr2 (m ((c.tc : Thread Cert.KernelIdeal.nD Cert.KernelIdeal.τ).loc Cert.KernelIdeal.main_arg1)))
    ∧ Real2 (arr2 (m ((c.tc : Thread Cert.KernelIdeal.nD Cert.KernelIdeal.τ).loc Cert.KernelIdeal.main_arg2)))
    ∧ Real1 (arr1 (m ((c.tc : Thread Cert.KernelIdeal.nD Cert.KernelIdeal.τ).loc Cert.KernelIdeal.main_arg3)))
    ∧ Real2 (arr2 (m ((c.tc : Thread Cert.KernelIdeal.nD Cert.KernelIdeal.τ).loc Cert.KernelIdeal.main_arg4)))
    ∧ Real1 (arr1 (m ((c.tc : Thread Cert.KernelIdeal.nD Cert.KernelIdeal.τ).loc Cert.KernelIdeal.main_arg5))) :=
  real_of_fn _ _ _ _ _ _ (h c)

end Cert.Sage

end
-- ==== Proof.lean ====
/-
  The certificate: a two-layer mean-aggregator network over a dense adjacency matrix, computed by two Pallas passes over
  blocks of 200 rows, against its jnp reference.

  Frames. The kernel program — two reshapes, the first pass, the second pass — runs to the end with every unscoped buffer
  at a known fold of the launch contents, at any float instance (Proof/K/Run.lean at the word level, Proof/KI/Run.lean at
  the extended reals); no item writes an argument. The reference is a straight line of host operations.

  Values, at the extended reals. The kernel's result is, row by row, `lsm (yself + mean(yneigh))`: the first pass leaves
  the own half of the second layer (with the bias) and the hidden rows times the bottom half of the second weight
  matrix, the second pass aggregates the latter 16-wide table and takes the log-softmax (Proof/KI/KValue.lean, over the
  passes' payloads read at an index: Proof/Pay0.lean, Proof/Pay1.lean). The reference's result is `lsm` of the joined row
  times the whole weight matrix (Proof/RefValue.lean). The two agree when the inputs are finite: a sum over the 256
  joined columns splits into its halves, and aggregating after the 16-wide product equals the product after aggregating
  by distributivity and the exchange of two finite sums over the reals, the clamped degree being a positive real
  (Proof/Algebra.lean); finiteness of every input entry is what the precondition says (Proof/Finite.lean).
  The idealization rewrote nothing, so the preservation claim is trivial.
-/
import proofs.«158636_g53910429499711_cont_9to1_m_389_3_alg».proof.Defs
import proofs.«158636_g53910429499711_cont_9to1_m_389_3_alg».proof.Proof.Gen.Kernel
import proofs.«158636_g53910429499711_cont_9to1_m_389_3_alg».proof.Proof.Gen.KernelIdeal
import proofs.«158636_g53910429499711_cont_9to1_m_389_3_alg».proof.Proof.Gen.ReferenceIdeal
import proofs.«158636_g53910429499711_cont_9to1_m_389_3_alg».proof.Proof.Gen.Pre_finite_inputs
import proofs.«158636_g53910429499711_cont_9to1_m_389_3_alg».proof.Proof.K.Run
import proofs.«158636_g53910429499711_cont_9to1_m_389_3_alg».proof.Proof.KI.KValue
import proofs.«158636_g53910429499711_cont_9to1_m_389_3_alg».proof.Proof.RefValue
import proofs.«158636_g53910429499711_cont_9to1_m_389_3_alg».proof.Proof.Algebra
import proofs.«158636_g53910429499711_cont_9to1_m_389_3_alg».proof.Proof.Finite
import Idealize.ShloMosaic.Adequacy
import Idealize.ShloMosaic.Init

noncomputable section

namespace Cert.Proof

open Idealize.ShloMosaic Idealize.SL.Sem Cert.Sage

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the six arguments, both programs end with the same table: the kernel's `outK` of the
    arguments, which is the reference's `outR` of them because every entry is a real number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => unarr2 (outK (arr2 (m ((c.tc : Thread Cert.KernelIdeal.nD Cert.KernelIdeal.τ).loc Cert.KernelIdeal.main_arg1))) (arr2 (m ((c.tc : Thread Cert.KernelIdeal.nD Cert.KernelIdeal.τ).loc Cert.KernelIdeal.main_arg0))) (arr2 (m ((c.tc : Thread Cert.KernelIdeal.nD Cert.KernelIdeal.τ).loc Cert.KernelIdeal.main_arg2)))
      (arr1 (m ((c.tc : Thread Cert.KernelIdeal.nD Cert.KernelIdeal.τ).loc Cert.KernelIdeal.main_arg3))) (arr2 (m ((c.tc : Thread Cert.KernelIdeal.nD Cert.KernelIdeal.τ).loc Cert.KernelIdeal.main_arg4))) (arr1 (m ((c.tc : Thread Cert.KernelIdeal.nD Cert.KernelIdeal.τ).loc Cert.KernelIdeal.main_arg5)))), ?_, ?_⟩
  · exact (θ_run Cert.KernelIdeal.defs _ _).mono
      (fun r h c => ⟨(h c).1.trans (Cert.KernelIdeal.Hand.kernel_value m c), (h c).2⟩)
      (Cert.KernelIdeal.Hand.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5⟩ := Cert.Sage.real_of_pre (hP := Cert.Pre_finite_inputs.Gen.facts) m hpre c
    dsimp only
    rw [outK_eq_outR _ _ _ _ _ _ h1 h0 h2 h3 h4 h5]
    refine (Cert.ReferenceIdeal.RefValue.res_eq m' c).trans ?_
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
